-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2 : Shape := ⟨2, ![8192, 2]⟩
abbrev S_ : Shape := ⟨0, ![]⟩

class Facts : Prop where
  bcast_S_S8192x2 : S_.BroadcastsInDim S8192x2 (![] : Fin 0 → Fin S8192x2.rank)
  reducesTo_S8192x2_S_d0_1 : S8192x2.ReducesTo [0, 1] S_
  h_S_ : 0 < S_.numel

variable [Facts]

def fn {F : FTy → Type} [FloatOps F] (main_arg0 : FVec F S8192x2 .f32) (main_arg1 : FVec F S8192x2 .f32) : IVec S_ 1 :=
  let main_v0 : FVec F S8192x2 .f32 := Host.absf main_arg0
  let main_cst : FVec F S_ .f32 := constant S_ .f32 0x7F800000#32
  let main_v1 : FVec F S8192x2 .f32 := broadcastInDim S8192x2 ![] bcast_S_S8192x2 main_cst
  let main_v2 : IVec S8192x2 1 := cmpf .olt main_v0 main_v1
  let main_c : IVec S_ 1 := constantI S_ 1 1#1
  let main_v3 : IVec S_ 1 := (fun x v => Host.reduce IntOp.andi x v reducesTo_S8192x2_S_d0_1 h_S_) main_v2 main_c
  let main_v4 : FVec F S8192x2 .f32 := Host.absf main_arg1
  let main_cst_0 : FVec F S_ .f32 := constant S_ .f32 0x7F800000#32
  let main_v5 : FVec F S8192x2 .f32 := broadcastInDim S8192x2 ![] bcast_S_S8192x2 main_cst_0
  let main_v6 : IVec S8192x2 1 := cmpf .olt main_v4 main_v5
  let main_c_1 : IVec S_ 1 := constantI S_ 1 1#1
  let main_v7 : IVec S_ 1 := (fun x v => Host.reduce IntOp.andi x v reducesTo_S8192x2_S_d0_1 h_S_) main_v6 main_c_1
  let main_v8 : IVec S_ 1 := andi main_v3 main_v7
  main_v8
-- ==== Kernel.lean ====
abbrev S8192x2 : Shape := ⟨2, ![8192, 2]⟩
abbrev S8192x1 : Shape := ⟨2, ![8192, 1]⟩
abbrev S8192 : Shape := ⟨1, ![8192]⟩
abbrev S_ : Shape := ⟨0, ![]⟩
abbrev S1x8192 : Shape := ⟨2, ![1, 8192]⟩
abbrev S3x8192 : Shape := ⟨2, ![3, 8192]⟩
abbrev S1x1 : Shape := ⟨2, ![1, 1]⟩
abbrev S2048x2 : Shape := ⟨2, ![2048, 2]⟩
abbrev S2048x1 : Shape := ⟨2, ![2048, 1]⟩
abbrev S1x2048 : Shape := ⟨2, ![1, 2048]⟩
abbrev S2048x2048 : Shape := ⟨2, ![2048, 2048]⟩
abbrev S2048 : Shape := ⟨1, ![2048]⟩
abbrev S1x2048x1 : Shape := ⟨3, ![1, 2048, 1]⟩
abbrev S1 : Shape := ⟨1, ![1]⟩
abbrev S1x1x1 : Shape := ⟨3, ![1, 1, 1]⟩

abbrev nBuf : Space → Nat
  | .hbm => 21
  | .vmem => 4
  | .smem => 0
  | _ => 0

abbrev bufTy : (tb : Table) → Fin (tcTables nBuf tb) → BufTy
  | .hbm, ⟨0, _⟩ => ⟨S8192x2, .f32⟩
  | .hbm, ⟨1, _⟩ => ⟨S8192x2, .f32⟩
  | .hbm, ⟨2, _⟩ => ⟨S8192x1, .f32⟩
  | .hbm, ⟨3, _⟩ => ⟨S8192, .f32⟩
  | .hbm, ⟨4, _⟩ => ⟨S8192x1, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S8192, .f32⟩
  | .hbm, ⟨15, _⟩ => ⟨S1x8192, .f32⟩
  | .hbm, ⟨16, _⟩ => ⟨S1x8192, .f32⟩
  | .hbm, ⟨17, _⟩ => ⟨S1x8192, .f32⟩
  | .hbm, ⟨18, _⟩ => ⟨S3x8192, .f32⟩
  | .hbm, ⟨19, _⟩ => ⟨S1x1, .f32⟩
  | .hbm, ⟨20, _⟩ => ⟨S_, .f32⟩
  | .local _ .vmem, ⟨0, _⟩ => ⟨S2048x2, .f32⟩
  | .local _ .vmem, ⟨1, _⟩ => ⟨S2048x2, .f32⟩
  | .local _ .vmem, ⟨2, _⟩ => ⟨S3x8192, .f32⟩
  | .local _ .vmem, ⟨3, _⟩ => ⟨S1x1, .f32⟩
  | _, _ => ⟨S8192x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  slices_S8192x2_S8192x1_0_0 : S8192x2.Slices ![0, 0] S8192x1
  shapeCasts_S8192x1_S8192 : S8192x1.ShapeCasts S8192
  slices_S8192x2_S8192x1_0_1 : S8192x2.Slices ![0, 1] S8192x1
  bcast_S_S8192 : S_.BroadcastsInDim S8192 (![] : Fin 0 → Fin S8192.rank)
  bcast_S8192_S1x8192_1 : S8192.BroadcastsInDim S1x8192 (![1] : Fin 1 → Fin S1x8192.rank)
  concatenates_S1x8192_S1x8192_S1x8192_S3x8192_d0 : Shape.Concatenates [S1x8192, S1x8192, S1x8192] S3x8192 0
  inb_S2048x2_S2048x1_0_0 : ∀ a, (![0, 0] : Fin 2 → Nat) a + S2048x1.size a ≤ S2048x2.size a
  h_S2048x1 : 0 < S2048x1.numel
  inb_S2048x2_S2048x1_0_1 : ∀ a, (![0, 1] : Fin 2 → Nat) a + S2048x1.size a ≤ S2048x2.size a
  inb_S3x8192_S1x2048_0_0 : ∀ a, (![0, 0] : Fin 2 → Nat) a + S1x2048.size a ≤ S3x8192.size a
  h_S1x2048 : 0 < S1x2048.numel
  shapeCasts_S1x2048_S1x2048 : S1x2048.ShapeCasts S1x2048
  inb_S3x8192_S1x2048_1_0 : ∀ a, (![1, 0] : Fin 2 → Nat) a + S1x2048.size a ≤ S3x8192.size a
  inb_S3x8192_S1x2048_2_0 : ∀ a, (![2, 0] : Fin 2 → Nat) a + S1x2048.size a ≤ S3x8192.size a
  broadcasts_S2048x1_S2048x2048 : S2048x1.Broadcasts S2048x2048
  broadcasts_S1x2048_S2048x2048 : S1x2048.Broadcasts S2048x2048
  reduces_S2048x2048_S2048 : S2048x2048.Reduces [1] S2048
  shapeCasts_S2048_S2048x1 : S2048.ShapeCasts S2048x1
  inb_S3x8192_S1x2048_0_2048 : ∀ a, (![0, 2048] : Fin 2 → Nat) a + S1x2048.size a ≤ S3x8192.size a
  inb_S3x8192_S1x2048_1_2048 : ∀ a, (![1, 2048] : Fin 2 → Nat) a + S1x2048.size a ≤ S3x8192.size a
  inb_S3x8192_S1x2048_2_2048 : ∀ a, (![2, 2048] : Fin 2 → Nat) a + S1x2048.size a ≤ S3x8192.size a
  inb_S3x8192_S1x2048_0_4096 : ∀ a, (![0, 4096] : Fin 2 → Nat) a + S1x2048.size a ≤ S3x8192.size a
  inb_S3x8192_S1x2048_1_4096 : ∀ a, (![1, 4096] : Fin 2 → Nat) a + S1x2048.size a ≤ S3x8192.size a
  inb_S3x8192_S1x2048_2_4096 : ∀ a, (![2, 4096] : Fin 2 → Nat) a + S1x2048.size a ≤ S3x8192.size a
  inb_S3x8192_S1x2048_0_6144 : ∀ a, (![0, 6144] : Fin 2 → Nat) a + S1x2048.size a ≤ S3x8192.size a
  inb_S3x8192_S1x2048_1_6144 : ∀ a, (![1, 6144] : Fin 2 → Nat) a + S1x2048.size a ≤ S3x8192.size a
  inb_S3x8192_S1x2048_2_6144 : ∀ a, (![2, 6144] : Fin 2 → Nat) a + S1x2048.size a ≤ S3x8192.size a
  shapeCasts_S2048x1_S1x2048x1 : S2048x1.ShapeCasts S1x2048x1
  reduces_S1x2048x1_S1 : S1x2048x1.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2.size a ≤ S8192x2.size a
  hwx0_0 : ∀ i : grid0.Coords, EltTy.bits .f32 = 32 ∨ (Rect.block (s := S8192x2) S2048x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x8192.size a ≤ S3x8192.size a
  hwx0_1 : ∀ i : grid0.Coords, EltTy.bits .f32 = 32 ∨ (Rect.block (s := S3x8192) S3x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S2048x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S3x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x2 : Shape := ⟨2, ![8192, 2]⟩
abbrev S8192x1x2 : Shape := ⟨3, ![8192, 1, 2]⟩
abbrev S1x8192x2 : Shape := ⟨3, ![1, 8192, 2]⟩
abbrev S8192x8192x2 : Shape := ⟨3, ![8192, 8192, 2]⟩
abbrev S_ : Shape := ⟨0, ![]⟩
abbrev S8192x8192 : Shape := ⟨2, ![8192, 8192]⟩
abbrev S8192 : Shape := ⟨1, ![8192]⟩

abbrev nBuf : Space → Nat
  | .hbm => 17
  | .vmem => 0
  | .smem => 0
  | _ => 0

abbrev bufTy : (tb : Table) → Fin (tcTables nBuf tb) → BufTy
  | .hbm, ⟨0, _⟩ => ⟨S8192x2, .f32⟩
  | .hbm, ⟨1, _⟩ => ⟨S8192x2, .f32⟩
  | .hbm, ⟨2, _⟩ => ⟨S8192x1x2, .f32⟩
  | .hbm, ⟨3, _⟩ => ⟨S1x8192x2, .f32⟩
  | .hbm, ⟨4, _⟩ => ⟨S8192x8192x2, .f32⟩
  | .hbm, ⟨5, _⟩ => ⟨S8192x8192x2, .f32⟩
  | .hbm, ⟨6, _⟩ => ⟨S8192x8192x2, .f32⟩
  | .hbm, ⟨7, _⟩ => ⟨S8192x8192x2, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | _, _ => ⟨S8192x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S8192x2_S8192x1x2_0_2 : S8192x2.BroadcastsInDim S8192x1x2 (![0, 2] : Fin 2 → Fin S8192x1x2.rank)
  bcast_S8192x2_S1x8192x2_1_2 : S8192x2.BroadcastsInDim S1x8192x2 (![1, 2] : Fin 2 → Fin S1x8192x2.rank)
  bcast_S8192x1x2_S8192x8192x2_0_1_2 : S8192x1x2.BroadcastsInDim S8192x8192x2 (![0, 1, 2] : Fin 3 → Fin S8192x8192x2.rank)
  bcast_S1x8192x2_S8192x8192x2_0_1_2 : S1x8192x2.BroadcastsInDim S8192x8192x2 (![0, 1, 2] : Fin 3 → Fin S8192x8192x2.rank)
  reducesTo_S8192x8192x2_S8192x8192_d2 : S8192x8192x2.ReducesTo [2] S8192x8192
  h_S_ : 0 < S_.numel
  reducesTo_S8192x8192_S8192_d1 : S8192x8192.ReducesTo [1] S8192
  reducesTo_S8192_S_d0 : S8192.ReducesTo [0] S_

variable [Facts₀]

class Facts : Prop extends Facts₀ where

variable [Facts]
-- ==== Proof.KIKit.lean ====
/-
  The frame of the kernel's program, first part: the program around its one region.

  The program first lays out, with seventeen array operations on the second argument, the 3 × 8192 table the
  region reads (the last of them stacks three rows); then the region runs over four grid points, each reading
  2048 rows of the first argument and the whole table and adding into one 1 × 1 result block; then one reshape
  makes the scalar result. Here: what the region finds in every buffer when it is entered (the launch memory
  after the seventeen operations), that the program is those operations, the region, and the reshape; that the
  reshape touches no array the region stages; that neither argument array is written before or after the
  region; the block of each staged array at each grid point; that an input's staging buffer holds its block at
  every point whether or not it was fetched there (the table is fetched once, at the first point); when the
  body's one branch is taken (at the first point only); and that a run of the region's frame gives back both
  argument arrays unchanged. Everything is stated for any float instance.
-/
import proofs.«109082_g41154376630568_cont_8to1_b_1840_20_alg».proof.Proof.Gen.KernelIdeal.Launch
import proofs.«109082_g41154376630568_cont_8to1_b_1840_20_alg».proof.Proof.Gen.KernelIdeal.Skeleton
import proofs.«109082_g41154376630568_cont_8to1_b_1840_20_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- What every buffer of core `c` holds when the region is entered: the launch memory after the seventeen
    operations that lay out the table. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- None of the operations before the region allocates a buffer. -/
theorem hostOps0_fresh : (hostOps0 : List (HloOp τ sig (Elt F))).Forall fun op => op.fresh = ∅ := by
  simp only [List.Forall]; repeat' constructor
/-- Nor does the reshape after it. -/
theorem hostOps1_fresh : (hostOps1 : List (HloOp τ sig (Elt F))).Forall fun op => op.fresh = ∅ := by
  simp only [List.Forall]; repeat' constructor

/-- The program is the table's operations, the region, the reshape: from the launch memory it reduces to the
    region entered at `V` and continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape touches only buffers that outlive the region: the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the region's three arrays: its result is the scalar buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No operation before the region writes the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- Nor the second argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- The second argument is staged by no window and written by neither the region nor the reshape: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The rows' staging buffer holds the point's 2048 rows at every point, for any proof data over `V` whose body
    leaves them in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The table's staging buffer holds the whole table at every point, though it is fetched at the first only:
    its block index never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## Both arguments unchanged, from a run of the region's frame -/

/-- For any proof data whose arrays are the region-entry contents, a run that ends with every staged array at what
    the proof data compute and every other buffer at its contents after the reshape ends with both argument arrays
    as launched: the first is a staged input, the second is staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 (by decide) (by decide))).trans (W_main_arg1 m dats c)⟩) h

/-! ## The body's one branch -/

/-- The branch's condition from the grid coordinate: "this is grid point 0", as the body computes it. -/
abbrev cond0_0 (i : grid0.Coords) : Prop := (Scalar.cmpi .ne (Scalar.extui (Scalar.cmpi .eq (BitVec.ofNat 32 (i 0).val) 0#32)) 0#32) = 1#1
/-- It holds at the first point only, decided over the four points. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The staging buffers the body is called with -/

/-- The result block's one staging buffer, as a view: what it holds is stated through it. -/
abbrev VO0_2 : View sig .tc .vmem S1x1 .f32 := (Memref.whole cc0_stg2_0 : Memref sig .tc .vmem S1x1 .f32).view
/-- Each window's current staging buffer at point `t`, as the region passes it to the body, and that it is a whole buffer. -/
abbrev ms0_0 (t : Fin cfg0.N) : Memref sig .tc .vmem S2048x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)

end Cert.KernelIdeal.Frm

end
-- ==== Proof.KIRunA.lean ====
/-
  The kernel body at the first grid point, where its branch is taken.

  On whole staging buffers — the rows' at its 2048 rows, the table's at the table, the result's at anything —
  the body loads the rows' two columns and the table's twelve stretches, stores zero into the 1 × 1 result
  buffer, reads it back and stores it plus the point's scaled partial sum. It runs to the end without a fault,
  gives the two input buffers back as they were, and leaves the result buffer with two stores written, the
  later over the earlier. Those two stores, as a list of pieces, are what the run finds.
-/
import proofs.«109082_g41154376630568_cont_8to1_b_1840_20_alg».proof.Proof.KIKit

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the result buffer at the first point (last first), with the proof that
    from the inputs' buffers at their contents and the result's at anything the body runs to a continuation that
    is handed the inputs' buffers unchanged and the result's with those pieces written. -/
noncomputable def kernelRun0_A (c : Dev nD) (i : grid0.Coords) (arg1 : Memref sig .tc .vmem S2048x2 .f32) (harg1 : arg1.IsWhole) (arg2 : Memref sig .tc .vmem S3x8192 .f32) (harg2 : arg2.IsWhole) (arg3 : Memref sig .tc .vmem S1x1 .f32) (harg3 : arg3.IsWhole) (hc0 : cond0_0 i)
    (x0 : Vec F S2048x2 .f32) (x1 : Vec F S3x8192 .f32) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__psl_kernel i arg1 harg1 arg2 harg2 arg3 harg3) K } := by
  refine ⟨?_, fun E K => ?run⟩
  case run =>
    simp only [cc0__psl_kernel_eq_skeleton]; unfold cc0__psl_kernel_skel
    simp only [k0_part1_eq_skeleton, k0_part2_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Frm

end
-- ==== Proof.KIRunB.lean ====
/-
  The kernel body at a later grid point, where its branch is not taken.

  On whole staging buffers — the rows' at its 2048 rows, the table's at the table, the result's at what the
  point before left — the body loads the rows' two columns and the table's twelve stretches, reads the result
  buffer and stores it plus the point's scaled partial sum. It runs to the end without a fault, gives the two
  input buffers back as they were, and leaves the result buffer with that one store written. The store, as a
  list of one piece, is what the run finds.
-/
import proofs.«109082_g41154376630568_cont_8to1_b_1840_20_alg».proof.Proof.KIRunA

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the result buffer at a later point, with the proof that from the inputs'
    buffers at their contents and the result's at its running contents the body runs to a continuation that is
    handed the inputs' buffers unchanged and the result's with those pieces written. -/
noncomputable def kernelRun0_B (c : Dev nD) (i : grid0.Coords) (arg1 : Memref sig .tc .vmem S2048x2 .f32) (harg1 : arg1.IsWhole) (arg2 : Memref sig .tc .vmem S3x8192 .f32) (harg2 : arg2.IsWhole) (arg3 : Memref sig .tc .vmem S1x1 .f32) (harg3 : arg3.IsWhole) (hc0 : ¬cond0_0 i)
    (x0 : Vec F S2048x2 .f32) (x1 : Vec F S3x8192 .f32) (xo2 : Vec F S1x1 .f32) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__psl_kernel i arg1 harg1 arg2 harg2 arg3 harg3) K } := by
  refine ⟨?_, fun E K => ?run⟩
  case run =>
    simp only [cc0__psl_kernel_eq_skeleton]; unfold cc0__psl_kernel_skel
    simp only [k0_part1_eq_skeleton, k0_part2_eq_skeleton]
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Frm

end
-- ==== Proof.KIFrame.lean ====
/-
  The frame of the kernel, last part: the region's proof data, the body at every grid point, the run.

  The 1 × 1 result block is kept in its staging buffer across the four grid points and written back once, after
  the last. What it holds after point 0 is what the first case's two stores leave; after a later point, what
  that case's one store leaves over what the point before left: a recursion on the point. With the rows' and the
  table's buffers holding their blocks at every point, the body at each point is one of the two runs; the
  region's invariant passes through unread. The launch then gives: every weakly fair execution of the program
  ends, nothing faults, each staged array holds what the proof data compute (the result array: what the last
  point left), every other buffer what the reshape after the region leaves; in particular both arguments are
  unchanged.
-/
import proofs.«109082_g41154376630568_cont_8to1_b_1840_20_alg».proof.Proof.KIRunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the result buffer -/

/-- The first point's two stores cover the 1 × 1 block. -/
theorem cover0_A_2 (c : Dev nD) (i : grid0.Coords) (arg1 : Memref sig .tc .vmem S2048x2 .f32) (harg1 : arg1.IsWhole) (arg2 : Memref sig .tc .vmem S3x8192 .f32) (harg2 : arg2.IsWhole) (arg3 : Memref sig .tc .vmem S1x1 .f32) (harg3 : arg3.IsWhole) (hc0 : cond0_0 i)
    (x0 : Vec F S2048x2 .f32) (x1 : Vec F S3x8192 .f32) (y : S1x1.Idx) :
    ∃ pc ∈ (kernelRun0_A c i arg1 harg1 arg2 harg2 arg3 harg3 hc0 x0 x1).1, y ∈ pc.1.set :=
  View.cover_of_tiledL (kernelRun0_A c i arg1 harg1 arg2 harg2 arg3 harg3 hc0 x0 x1).1 S1x1.size (by sl_kernel_rfl) y

/-- What the first point leaves in the result buffer: its stores read back. -/
def out0_A_2 (c : Dev nD) (i : grid0.Coords) (arg1 : Memref sig .tc .vmem S2048x2 .f32) (harg1 : arg1.IsWhole) (arg2 : Memref sig .tc .vmem S3x8192 .f32) (harg2 : arg2.IsWhole) (arg3 : Memref sig .tc .vmem S1x1 .f32) (harg3 : arg3.IsWhole) (hc0 : cond0_0 i)
    (x0 : Vec F S2048x2 .f32) (x1 : Vec F S3x8192 .f32) : Vec F S1x1 .f32 :=
  VO0_2.read (Elt F) (VO0_2.writes (Elt F) VO0_2.junk (kernelRun0_A c i arg1 harg1 arg2 harg2 arg3 harg3 hc0 x0 x1).1)

/-- A later point's one store covers the 1 × 1 block. -/
theorem cover0_B_2 (c : Dev nD) (i : grid0.Coords) (arg1 : Memref sig .tc .vmem S2048x2 .f32) (harg1 : arg1.IsWhole) (arg2 : Memref sig .tc .vmem S3x8192 .f32) (harg2 : arg2.IsWhole) (arg3 : Memref sig .tc .vmem S1x1 .f32) (harg3 : arg3.IsWhole) (hc0 : ¬cond0_0 i)
    (x0 : Vec F S2048x2 .f32) (x1 : Vec F S3x8192 .f32) (xo2 : Vec F S1x1 .f32) (y : S1x1.Idx) :
    ∃ pc ∈ (kernelRun0_B c i arg1 harg1 arg2 harg2 arg3 harg3 hc0 x0 x1 xo2).1, y ∈ pc.1.set :=
  View.cover_of_tiledL (kernelRun0_B c i arg1 harg1 arg2 harg2 arg3 harg3 hc0 x0 x1 xo2).1 S1x1.size (by sl_kernel_rfl) y

/-- What a later point leaves in the result buffer, over what the point before left (`xo2`). -/
def out0_B_2 (c : Dev nD) (i : grid0.Coords) (arg1 : Memref sig .tc .vmem S2048x2 .f32) (harg1 : arg1.IsWhole) (arg2 : Memref sig .tc .vmem S3x8192 .f32) (harg2 : arg2.IsWhole) (arg3 : Memref sig .tc .vmem S1x1 .f32) (harg3 : arg3.IsWhole) (hc0 : ¬cond0_0 i)
    (x0 : Vec F S2048x2 .f32) (x1 : Vec F S3x8192 .f32) (xo2 : Vec F S1x1 .f32) : Vec F S1x1 .f32 :=
  VO0_2.read (Elt F) (VO0_2.writes (Elt F) VO0_2.junk (kernelRun0_B c i arg1 harg1 arg2 harg2 arg3 harg3 hc0 x0 x1 xo2).1)

/-! ## The accumulation over the grid points -/

/-- What the result buffer holds after the body at position `n`: at position 0 the first case's result on the
    point's blocks; at a later position the second case's, over what position `n - 1` left. -/
def outsAt0 (c : Dev nD) : (n : ℕ) → n < cfg0.N → Vec F S1x1 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk m c 0 ⟨0, hn⟩) (iblk m c 1 ⟨0, hn⟩)
  | n + 1, hn =>
    if h0 : (n + 1) % 4 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk m c 0 ⟨n + 1, hn⟩) (iblk m c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn))

/-- At the first point: the first case's result. -/
theorem outsAt0_A (c : Dev nD) (t : Fin cfg0.N) (h0 : t.val % 4 = 0) :
    outsAt0 m c t.val t.isLt = out0_A_2 c (grid0.coords t) (ms0_0 t) (hs0_0 t) (ms0_1 t) (hs0_1 t) (ms0_2 t) (hs0_2 t) ((hcond0_0 t).mpr h0) (iblk m c 0 t) (iblk m c 1 t) := by
  obtain ⟨n, hn⟩ := t
  cases n with
  | zero => exact rfl
  | succ n => exact (dif_pos h0).trans rfl

/-- At a later point: the second case's result over what the point before left. -/
theorem outsAt0_B (c : Dev nD) (t : Fin cfg0.N) (h0 : ¬t.val % 4 = 0) :
    outsAt0 m c t.val t.isLt = out0_B_2 c (grid0.coords t) (ms0_0 t) (hs0_0 t) (ms0_1 t) (hs0_1 t) (ms0_2 t) (hs0_2 t) (fun h => h0 ((hcond0_0 t).mp h)) (iblk m c 0 t) (iblk m c 1 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The region's proof data -/

/-- The proof data of the region on core `c`: the arrays as the region finds them; after the body at point `t`
    each input's buffer at its block and the result's at `outsAt0`; the invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

/-- The inputs' staging buffers hold their blocks at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a later point the result's staging buffer holds what the body left at the point before: the block is
    written back after the last point only. -/
theorem before0_2_B (c : Dev nD) (t : Fin cfg0.N) (h0 : ¬t.val % 4 = 0) (d) :
    (dats m 0 c).before 2 t d = (outsAt0 m c (t.val - 1) (Nat.lt_of_le_of_lt (Nat.sub_le _ _) t.isLt)) := by
  have hN : t.val < 4 := lt_of_lt_of_eq t.isLt (show cfg0.N = 4 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body at a grid point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- And what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 800000 in
/-- The body at any point: the inputs' buffers hold their blocks; the point is the first or a later one; at a later
    one the result's buffer holds what the point before left; so that case's run applies. The invariant passes
    through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hN : t.val < 4 := lt_of_lt_of_eq t.isLt (show cfg0.N = 4 from N_0)
  by_cases h0 : t.val % 4 = 0
  · rw [outsAt0_A m c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B m c t h0]
    simp only [before0_2_B m c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

/-- The body's obligation to the region, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- For any float values, from any memory with zero counters: every weakly fair execution of the program ends
    without a fault, with each staged array at what the proof data compute and every other buffer at what the
    reshape after the region leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves both argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Frm

end
-- ==== Proof.Spec.lean ====
/-
  The common specification of the two programs, over plain index functions on the extended reals.

  Points p : 8192 rows of two coordinates, and q : 8192 rows of two coordinates. The reference takes, for each
  row i of p, the least Euclidean distance to a row of q, and averages these over i.  The kernel first lays out
  a table A of three rows over q's index j — (-2)·q_j0, (-2)·q_j1, q_j0² + q_j1² —, so that
  x·A0j + (y·A1j + A2j) is the squared distance from (x, y) to q_j less x² + y²; it takes the least of that
  over j in four stretches of 2048, adds x² + y² back, clamps at zero, takes the root, sums 2048 rows per grid
  point, scales each partial sum by 2⁻¹³ and accumulates the four of them from zero.
  Both values are stated here exactly as the programs compute them; that they agree on finite inputs is
  Proof/Algebra.lean.
-/
import Idealize.ShloMosaic.PureOps.Ideal

noncomputable section

namespace Cert.Spec

open Idealize.ShloMosaic

/-- The constant -2 of the table's first two rows, as the float word the kernel's wrapper holds. -/
def negTwo : EReal := Ideal.ofBits .f32 0xC0000000#32
/-- The factor 2⁻¹³ each grid point's partial sum is scaled by, as the kernel's float word. -/
def scale : EReal := Ideal.ofBits .f32 0x39000000#32
/-- The divisor 8192 of the reference's mean, as its float word. -/
def count : EReal := Ideal.ofBits .f32 0x46000000#32

/-- The kernel's table over q: rows (-2)·q_j0, (-2)·q_j1, q_j0·q_j0 + q_j1·q_j1. -/
def auxOf (q : Fin 8192 → Fin 2 → EReal) (a : Fin 3) (j : Fin 8192) : EReal :=
  match a with
  | 0 => negTwo * q j 0
  | 1 => negTwo * q j 1
  | 2 => q j 0 * q j 0 + q j 1 * q j 1

/-- The squared distance from (x, y) to q_j less x² + y², read off the table. -/
def term (x y : EReal) (A : Fin 3 → Fin 8192 → EReal) (j : Fin 8192) : EReal :=
  x * A 0 j + (y * A 1 j + A 2 j)

/-- Index j' of stretch a of the 8192 columns. -/
def col (a : Fin 4) (j' : Fin 2048) : Fin 8192 := ⟨2048 * a.val + j'.val, by omega⟩

/-- Row r of grid point t of the 8192 rows. -/
def row (t : Fin 4) (r : Fin 2048) : Fin 8192 := ⟨2048 * t.val + r.val, by omega⟩

/-- The least term over one stretch of 2048 columns, from +∞. -/
def chunkMin (x y : EReal) (A : Fin 3 → Fin 8192 → EReal) (a : Fin 4) : EReal :=
  (Finset.univ : Finset (Fin 2048)).fold min ⊤ fun j' => term x y A (col a j')

/-- One row's value in the kernel: the least term over the four stretches, x² + y² added back, clamped at
    zero, the root taken. -/
def rowVal (x y : EReal) (A : Fin 3 → Fin 8192 → EReal) : EReal :=
  Ideal.sqrt (max (min (min (min (chunkMin x y A 0) (chunkMin x y A 1)) (chunkMin x y A 2)) (chunkMin x y A 3)
    + (x * x + y * y)) 0)

/-- The sum of the 2048 rows of grid point t. -/
def blockSum (p : Fin 8192 → Fin 2 → EReal) (A : Fin 3 → Fin 8192 → EReal) (t : Fin 4) : EReal :=
  ∑ r : Fin 2048, rowVal (p (row t r) 0) (p (row t r) 1) A

/-- The kernel's result: the four scaled partial sums accumulated from zero, in grid order. -/
def kerVal (p q : Fin 8192 → Fin 2 → EReal) : EReal :=
  (((0 + blockSum p (auxOf q) 0 * scale) + blockSum p (auxOf q) 1 * scale) + blockSum p (auxOf q) 2 * scale)
    + blockSum p (auxOf q) 3 * scale

/-- One row's value in the reference: the least distance to a row of q, from +∞. -/
def refRow (p q : Fin 8192 → Fin 2 → EReal) (i : Fin 8192) : EReal :=
  (Finset.univ : Finset (Fin 8192)).fold min ⊤ fun j =>
    Ideal.sqrt (0 + ∑ k : Fin 2, (p i k - q j k) * (p i k - q j k))

/-- The reference's result: the mean of the rows' least distances. -/
def refVal (p q : Fin 8192 → Fin 2 → EReal) : EReal :=
  Ideal.div (0 + ∑ i : Fin 8192, refRow p q i) count

end Cert.Spec

end
-- ==== Proof.Payload.lean ====
/-
  What the kernel body's arithmetic computes, read at the extended reals index by index.

  The body handles one grid point: 2048 rows (x, y) and the table A over 8192 columns, taken in four stretches of
  2048 columns.  For each stretch it forms the 2048 × 2048 array  x·A0j + (y·A1j + A2j), takes the least entry of
  each row from +∞, and takes the least of the four stretches' results; it adds x·x + y·y, clamps at zero, takes
  the root, and sums the 2048 rows.  The store then adds that sum, scaled by 2⁻¹³, to what the buffer held.
  Here each of these steps is read at an index, and the whole is identified with the specification's
  Spec.rowVal summed over the rows.
-/
import proofs.«109082_g41154376630568_cont_8to1_b_1840_20_alg».proof.Proof.Gen.KernelIdeal.Skeleton
import proofs.«109082_g41154376630568_cont_8to1_b_1840_20_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.KernelIdeal.KerValue

open Idealize.ShloMosaic Idealize.ShloMosaic.ValueIdx Cert.KernelIdeal Cert.KernelIdeal.Gen

/-! ## Layout operations read at an index -/

section Layout
variable {α : Type}

/-- A column [a, 1] broadcast to [a, b] reads, at (p, c), the column at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to the column [a, 1] reads, at (i, u), the vector at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The one entry of a [1] vector cast to [1, 1, 1], extracted at (0, 0, 0), is the vector's one entry. -/
theorem extractAt_shapeCast_1_111 (x : (⟨1, ![1]⟩ : Shape).Idx → α)
    (h : (⟨1, ![1]⟩ : Shape).ShapeCasts ⟨3, ![1, 1, 1]⟩)
    (hp : ∀ a, (![0, 0, 0] : Fin 3 → Nat) a < (⟨3, ![1, 1, 1]⟩ : Shape).size a) :
    extractAt ![0, 0, 0] (shapeCast ⟨3, ![1, 1, 1]⟩ x h) hp = x (ix1 (0 : Fin 1)) := by
  unfold extractAt
  refine shapeCast_apply x h _ (ix1 (0 : Fin 1)) ?_
  rw [Shape.rowMajor_val_one, Shape.rowMajor_val_three]
  rfl

/-- The indices of a [1, n, 1] array are its middle coordinates. -/
def midEquiv (n : ℕ) : Fin n ≃ (⟨3, ![1, n, 1]⟩ : Shape).Idx where
  toFun r := ix3 (0 : Fin 1) r (0 : Fin 1)
  invFun i := i 1
  left_inv _ := rfl
  right_inv i := by
    funext c
    match c with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)

/-- So a sum over such an array's indices is the sum over the middle coordinate. -/
theorem sum_idx_1n1 {M : Type} [AddCommMonoid M] {n : ℕ} (f : (⟨3, ![1, n, 1]⟩ : Shape).Idx → M) :
    ∑ i, f i = ∑ r : Fin n, f (ix3 (0 : Fin 1) r (0 : Fin 1)) :=
  (Equiv.sum_comp (midEquiv n) f).symm

end Layout

/-! ## The least entry along one axis -/

/-- A minimum reduction over one axis, read at the extended reals: the fold of min from the accumulator's value
    over that axis's coordinates. -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The word the minimum starts from denotes +∞. -/
theorem ofBits_inf_f32 : Ideal.ofBits .f32 0x7F800000#32 = ⊤ := by simp [Ideal.ofBits, Ideal.ieee]

/-- Row r of the 2048 × 2048 array with column j inserted is the index (r, j). -/
theorem lift_row (hm : S2048x2048.Reduces [1] S2048) (r j : Fin 2048) : hm.lift (ix1 r) j = ix2 r j :=
  funext fun c => match c with
    | ⟨0, _⟩ => Fin.ext rfl
    | ⟨1, _⟩ => Fin.ext rfl

/-- The least entry of row r of a 2048 × 2048 array, from +∞: the fold of min over the row's 2048 columns. -/
theorem minRow_apply (src : FVec Ideal S2048x2048 .f32) (hm : S2048x2048.Reduces [1] S2048)
    (hφ : FKind.Formats .f32) (hacc : (0x7F800000#32 : BitVec 32) = FKind.minimumf.neutral .f32 hφ) (r : Fin 2048) :
    multiReduction (F := Ideal) .minimumf [1] S2048 src 0x7F800000#32 hm hφ hacc (ix1 r)
      = (Finset.univ : Finset (Fin 2048)).fold min ⊤ fun j => src (ix2 r j) := by
  refine (multiReduction_minimumf_single src 0x7F800000#32 hm hφ hacc (ix1 r)).trans ?_
  rw [Ideal.ofBits_def, ofBits_inf_f32]
  refine Finset.fold_congr fun j _ => ?_
  rw [Function.comp_apply, lift_row hm r j]

/-- The sum of every entry of a [1, 2048, 1] array: the sum over its middle coordinate. -/
theorem sumAll_apply (src : FVec Ideal S1x2048x1 .f32) (h2 : S1x2048x1.Reduces [1, 2] S1)
    (hφ : FKind.Formats .f32) (hacc : (0x00000000#32 : BitVec 32) = FKind.add.neutral .f32 hφ) :
    multiReduction (F := Ideal) .add [1, 2] S1 src 0x00000000#32 h2 hφ hacc (ix1 (0 : Fin 1))
      = ∑ r : Fin 2048, src (ix3 (0 : Fin 1) r (0 : Fin 1)) :=
  (Ideal.multiReduction_add_total src 0x00000000#32 h2 (fun b => match b with | ⟨0, _⟩ => rfl) hφ hacc
    (ix1 (0 : Fin 1))).trans (sum_idx_1n1 src)

/-! ## The body's repeated pieces, named -/

section Pieces
variable {F : FTy → Type} [FloatOps F]

/-- The 2048 × 2048 array of one stretch: x·A0j + (y·A1j + A2j) at row (x, y) and column j. -/
def termVec (v0 v1 : Vec F S2048x1 .f32) (xs ys b2 : Vec F S1x2048 .f32)
    (hs : S1x2048.ShapeCasts S1x2048) (hc : S2048x1.Broadcasts S2048x2048) (hr : S1x2048.Broadcasts S2048x2048) :
    FVec F S2048x2048 .f32 :=
  addf (mulf (broadcastTo S2048x2048 v0 hc) (broadcastTo S2048x2048 (shapeCast S1x2048 xs hs) hr))
    (addf (mulf (broadcastTo S2048x2048 v1 hc) (broadcastTo S2048x2048 (shapeCast S1x2048 ys hs) hr))
      (broadcastTo S2048x2048 (shapeCast S1x2048 b2 hs) hr))

/-- One stretch's least entry of each row, as a column. -/
def stretch (v0 v1 : Vec F S2048x1 .f32) (xs ys b2 : Vec F S1x2048 .f32)
    (hs : S1x2048.ShapeCasts S1x2048) (hc : S2048x1.Broadcasts S2048x2048) (hr : S1x2048.Broadcasts S2048x2048)
    (hm : S2048x2048.Reduces [1] S2048) (hk : S2048.ShapeCasts S2048x1) : FVec F S2048x1 .f32 :=
  shapeCast S2048x1
    (multiReduction .minimumf [1] S2048 (termVec v0 v1 xs ys b2 hs hc hr) 0x7F800000#32 hm (.inl rfl) rfl) hk

/-- A row's value from the least of the stretches (m, s3, s4) and the squared length q: the root of the sum clamped at zero. -/
def rowVec (m s3 s4 q : FVec F S2048x1 .f32) : FVec F S2048x1 .f32 :=
  sqrt (maximumf (addf (minimumf (minimumf m s3) s4) q) (broadcast S2048x1 (Scalar.ofBits .f32 0x00000000#32)))

/-- The sum of a column's 2048 entries, as the one entry of a [1, 1] vector. -/
def totalVec (w : FVec F S2048x1 .f32) (h1 : S2048x1.ShapeCasts S1x2048x1) (h2 : S1x2048x1.Reduces [1, 2] S1)
    (h3 : S1.ShapeCasts S1x1x1) (h4 : ∀ a, (![0, 0, 0] : Fin 3 → Nat) a < S1x1x1.size a) : FVec F S1x1 .f32 :=
  broadcast S1x1 (extractAt ![0, 0, 0]
    (shapeCast S1x1x1 (multiReduction .add [1, 2] S1 (shapeCast S1x2048x1 w h1) 0x00000000#32 h2 (.inl rfl) rfl) h3) h4)

/-- The first two stretches' payload is the least of their two columns. -/
theorem pay4_shape (v0 v1 : Vec F S2048x1 .f32) (v5 v7 v9 v22 v24 v26 : Vec F S1x2048 .f32) :
    k0_pay4 v0 v1 v5 v7 v9 v22 v24 v26
      = minimumf
          (stretch v0 v1 v5 v7 v9 shapeCasts_S1x2048_S1x2048 broadcasts_S2048x1_S2048x2048
            broadcasts_S1x2048_S2048x2048 reduces_S2048x2048_S2048 shapeCasts_S2048_S2048x1)
          (stretch v0 v1 v22 v24 v26 shapeCasts_S1x2048_S1x2048 broadcasts_S2048x1_S2048x2048
            broadcasts_S1x2048_S2048x2048 reduces_S2048x2048_S2048 shapeCasts_S2048_S2048x1) := rfl

/-- The last payload is the total of the rows' values over the remaining two stretches. -/
theorem pay5_shape (v0 v1 : Vec F S2048x1 .f32) (v4 v39 : FVec F S2048x1 .f32)
    (v40 v42 v44 v58 v60 v62 : Vec F S1x2048 .f32) :
    k0_pay5 v0 v1 v4 v39 v40 v42 v44 v58 v60 v62
      = totalVec
          (rowVec v39
            (stretch v0 v1 v40 v42 v44 shapeCasts_S1x2048_S1x2048 broadcasts_S2048x1_S2048x2048
              broadcasts_S1x2048_S2048x2048 reduces_S2048x2048_S2048 shapeCasts_S2048_S2048x1)
            (stretch v0 v1 v58 v60 v62 shapeCasts_S1x2048_S1x2048 broadcasts_S2048x1_S2048x2048
              broadcasts_S1x2048_S2048x2048 reduces_S2048x2048_S2048 shapeCasts_S2048_S2048x1)
            v4)
          shapeCasts_S2048x1_S1x2048x1 reduces_S1x2048x1_S1 shapeCasts_S1_S1x1x1 inpos_S1x1x1_p0_0_0 := rfl

/-- The squared length of each row. -/
theorem pay3_shape (v0 v1 : Vec F S2048x1 .f32) : k0_pay3 v0 v1 = addf (mulf v0 v0) (mulf v1 v1) := rfl

/-- The stored value: the buffer's entry plus the partial sum times the constant. -/
theorem pay2_shape (v84 : FVec F S1x1 .f32) (v90 : Vec F S1x1 .f32) :
    k0_pay2 v84 v90
      = addf (shapeCast S1x1 v90 shapeCasts_S1x1_S1x1)
          (mulf v84 (broadcast S1x1 (Scalar.ofBits .f32 0x39000000#32))) := rfl

/-- The reset value: the zero word everywhere. -/
theorem pay1_shape : k0_pay1 (F := F) = broadcast S1x1 (Scalar.ofBits .f32 0x00000000#32) := rfl

end Pieces

/-! ## The pieces at the extended reals -/

/-- The stretch's array at (r, j). -/
theorem termVec_apply (v0 v1 : FVec Ideal S2048x1 .f32) (xs ys b2 : FVec Ideal S1x2048 .f32)
    (hs : S1x2048.ShapeCasts S1x2048) (hc : S2048x1.Broadcasts S2048x2048) (hr : S1x2048.Broadcasts S2048x2048)
    (r j : Fin 2048) :
    termVec (F := Ideal) v0 v1 xs ys b2 hs hc hr (ix2 r j)
      = v0 (ix2 r (0 : Fin 1)) * xs (ix2 (0 : Fin 1) j)
        + (v1 (ix2 r (0 : Fin 1)) * ys (ix2 (0 : Fin 1) j) + b2 (ix2 (0 : Fin 1) j)) := by
  have e0 := broadcastTo_a1_ab_apply v0 hc r j
  have e1 := broadcastTo_a1_ab_apply v1 hc r j
  have ex := (broadcastTo_1b_ab_apply (shapeCast S1x2048 xs hs) hr r j).trans
    (congrFun (shapeCast_self xs hs) (ix2 (0 : Fin 1) j))
  have ey := (broadcastTo_1b_ab_apply (shapeCast S1x2048 ys hs) hr r j).trans
    (congrFun (shapeCast_self ys hs) (ix2 (0 : Fin 1) j))
  have eb := (broadcastTo_1b_ab_apply (shapeCast S1x2048 b2 hs) hr r j).trans
    (congrFun (shapeCast_self b2 hs) (ix2 (0 : Fin 1) j))
  exact congrArg₂ (fun p q : EReal => p + q) (congrArg₂ (fun p q : EReal => p * q) e0 ex)
    (congrArg₂ (fun p q : EReal => p + q) (congrArg₂ (fun p q : EReal => p * q) e1 ey) eb)

/-- One stretch's column at row r: the least, from +∞, of the row's 2048 entries. -/
theorem stretch_apply (v0 v1 : FVec Ideal S2048x1 .f32) (xs ys b2 : FVec Ideal S1x2048 .f32)
    (hs : S1x2048.ShapeCasts S1x2048) (hc : S2048x1.Broadcasts S2048x2048) (hr : S1x2048.Broadcasts S2048x2048)
    (hm : S2048x2048.Reduces [1] S2048) (hk : S2048.ShapeCasts S2048x1) (r : Fin 2048) :
    stretch (F := Ideal) v0 v1 xs ys b2 hs hc hr hm hk (ix2 r (0 : Fin 1))
      = (Finset.univ : Finset (Fin 2048)).fold min ⊤ fun j =>
          v0 (ix2 r (0 : Fin 1)) * xs (ix2 (0 : Fin 1) j)
            + (v1 (ix2 r (0 : Fin 1)) * ys (ix2 (0 : Fin 1) j) + b2 (ix2 (0 : Fin 1) j)) := by
  unfold stretch
  refine (shapeCast_a_a1_apply _ hk r 0).trans ?_
  refine (minRow_apply _ hm _ _ r).trans ?_
  exact Finset.fold_congr fun j _ => termVec_apply v0 v1 xs ys b2 hs hc hr r j

/-- With the columns and the table's rows named, a stretch's column at row r is the specification's least term
    over that stretch. -/
theorem stretch_chunk (X : Fin 2048 → Fin 2 → EReal) (A : Fin 3 → Fin 8192 → EReal)
    (v0 v1 : FVec Ideal S2048x1 .f32) (xs ys b2 : FVec Ideal S1x2048 .f32)
    (hs : S1x2048.ShapeCasts S1x2048) (hc : S2048x1.Broadcasts S2048x2048) (hr : S1x2048.Broadcasts S2048x2048)
    (hm : S2048x2048.Reduces [1] S2048) (hk : S2048.ShapeCasts S2048x1)
    (h0 : ∀ r : Fin 2048, v0 (ix2 r (0 : Fin 1)) = X r 0) (h1 : ∀ r : Fin 2048, v1 (ix2 r (0 : Fin 1)) = X r 1)
    (a : Fin 4)
    (hx : ∀ j : Fin 2048, xs (ix2 (0 : Fin 1) j) = A 0 (Cert.Spec.col a j))
    (hy : ∀ j : Fin 2048, ys (ix2 (0 : Fin 1) j) = A 1 (Cert.Spec.col a j))
    (hb : ∀ j : Fin 2048, b2 (ix2 (0 : Fin 1) j) = A 2 (Cert.Spec.col a j)) (r : Fin 2048) :
    stretch (F := Ideal) v0 v1 xs ys b2 hs hc hr hm hk (ix2 r (0 : Fin 1))
      = Cert.Spec.chunkMin (X r 0) (X r 1) A a := by
  refine (stretch_apply v0 v1 xs ys b2 hs hc hr hm hk r).trans ?_
  unfold Cert.Spec.chunkMin Cert.Spec.term
  refine Finset.fold_congr fun j _ => ?_
  rw [h0 r, h1 r, hx j, hy j, hb j]

/-- The root of a vector, read at an index. -/
theorem sqrt_apply {s : Shape} {φ : FTy} (x : FVec Ideal s φ) (i : s.Idx) : sqrt x i = Ideal.sqrt (x i) := rfl

/-- A row's value at row r. -/
theorem rowVec_apply (m s3 s4 q : FVec Ideal S2048x1 .f32) (r : Fin 2048) :
    rowVec (F := Ideal) m s3 s4 q (ix2 r (0 : Fin 1))
      = Ideal.sqrt (max (min (min (m (ix2 r (0 : Fin 1))) (s3 (ix2 r (0 : Fin 1)))) (s4 (ix2 r (0 : Fin 1)))
          + q (ix2 r (0 : Fin 1))) 0) := by
  unfold rowVec
  rw [sqrt_apply, maximumf_apply, addf_apply, minimumf_apply, minimumf_apply, broadcast_apply, Ideal.ofBits_def,
    Ideal.ofBits_zero_f32]

/-- The total at its one index: the sum of the column's 2048 entries. -/
theorem totalVec_apply (w : FVec Ideal S2048x1 .f32) (h1 : S2048x1.ShapeCasts S1x2048x1)
    (h2 : S1x2048x1.Reduces [1, 2] S1) (h3 : S1.ShapeCasts S1x1x1)
    (h4 : ∀ a, (![0, 0, 0] : Fin 3 → Nat) a < S1x1x1.size a) (i : S1x1.Idx) :
    totalVec (F := Ideal) w h1 h2 h3 h4 i = ∑ r : Fin 2048, w (ix2 r (0 : Fin 1)) := by
  unfold totalVec
  refine (broadcast_apply _ i).trans ?_
  refine (extractAt_shapeCast_1_111 _ h3 h4).trans ?_
  refine (sumAll_apply _ h2 _ _).trans ?_
  exact Finset.sum_congr rfl fun r _ => shapeCast_ab_1ab_apply w h1 (0 : Fin 1) r (0 : Fin 1)

/-! ## The three payload statements -/

/-- One grid point's partial sum before scaling: with the loaded columns v0, v1 holding the 2048 rows' two
    coordinates and the twelve loaded table stretches holding rows 0, 1, 2 of the table over the four stretches of
    2048 columns, the body's value is, at its one index, the sum over the 2048 rows of Spec.rowVal. -/
theorem pay5_eq (X : Fin 2048 → Fin 2 → EReal) (A : Fin 3 → Fin 8192 → EReal)
    (v0 v1 : Vec Ideal S2048x1 .f32)
    (v5 v7 v9 v22 v24 v26 v40 v42 v44 v58 v60 v62 : Vec Ideal S1x2048 .f32)
    (h0 : ∀ r : Fin 2048, v0 (ix2 r 0) = X r 0) (h1 : ∀ r : Fin 2048, v1 (ix2 r 0) = X r 1)
    (h5 : ∀ j : Fin 2048, v5 (ix2 0 j) = A 0 (Cert.Spec.col 0 j))
    (h7 : ∀ j : Fin 2048, v7 (ix2 0 j) = A 1 (Cert.Spec.col 0 j))
    (h9 : ∀ j : Fin 2048, v9 (ix2 0 j) = A 2 (Cert.Spec.col 0 j))
    (h22 : ∀ j : Fin 2048, v22 (ix2 0 j) = A 0 (Cert.Spec.col 1 j))
    (h24 : ∀ j : Fin 2048, v24 (ix2 0 j) = A 1 (Cert.Spec.col 1 j))
    (h26 : ∀ j : Fin 2048, v26 (ix2 0 j) = A 2 (Cert.Spec.col 1 j))
    (h40 : ∀ j : Fin 2048, v40 (ix2 0 j) = A 0 (Cert.Spec.col 2 j))
    (h42 : ∀ j : Fin 2048, v42 (ix2 0 j) = A 1 (Cert.Spec.col 2 j))
    (h44 : ∀ j : Fin 2048, v44 (ix2 0 j) = A 2 (Cert.Spec.col 2 j))
    (h58 : ∀ j : Fin 2048, v58 (ix2 0 j) = A 0 (Cert.Spec.col 3 j))
    (h60 : ∀ j : Fin 2048, v60 (ix2 0 j) = A 1 (Cert.Spec.col 3 j))
    (h62 : ∀ j : Fin 2048, v62 (ix2 0 j) = A 2 (Cert.Spec.col 3 j))
    (i : S1x1.Idx) :
    k0_pay5 (F := Ideal) v0 v1 (k0_pay3 v0 v1) (k0_pay4 v0 v1 v5 v7 v9 v22 v24 v26) v40 v42 v44 v58 v60 v62 i
      = ∑ r : Fin 2048, Cert.Spec.rowVal (X r 0) (X r 1) A := by
  refine (congrFun (pay5_shape (F := Ideal) v0 v1 _ _ v40 v42 v44 v58 v60 v62) i).trans ?_
  refine (totalVec_apply _ _ _ _ _ i).trans ?_
  refine Finset.sum_congr rfl fun r _ => ?_
  refine (rowVec_apply _ _ _ _ r).trans ?_
  have c0 := stretch_chunk X A v0 v1 v5 v7 v9 shapeCasts_S1x2048_S1x2048 broadcasts_S2048x1_S2048x2048
    broadcasts_S1x2048_S2048x2048 reduces_S2048x2048_S2048 shapeCasts_S2048_S2048x1 h0 h1 0 h5 h7 h9 r
  have c1 := stretch_chunk X A v0 v1 v22 v24 v26 shapeCasts_S1x2048_S1x2048 broadcasts_S2048x1_S2048x2048
    broadcasts_S1x2048_S2048x2048 reduces_S2048x2048_S2048 shapeCasts_S2048_S2048x1 h0 h1 1 h22 h24 h26 r
  have c2 := stretch_chunk X A v0 v1 v40 v42 v44 shapeCasts_S1x2048_S1x2048 broadcasts_S2048x1_S2048x2048
    broadcasts_S1x2048_S2048x2048 reduces_S2048x2048_S2048 shapeCasts_S2048_S2048x1 h0 h1 2 h40 h42 h44 r
  have c3 := stretch_chunk X A v0 v1 v58 v60 v62 shapeCasts_S1x2048_S1x2048 broadcasts_S2048x1_S2048x2048
    broadcasts_S1x2048_S2048x2048 reduces_S2048x2048_S2048 shapeCasts_S2048_S2048x1 h0 h1 3 h58 h60 h62 r
  have c01 : k0_pay4 (F := Ideal) v0 v1 v5 v7 v9 v22 v24 v26 (ix2 r (0 : Fin 1))
      = min (Cert.Spec.chunkMin (X r 0) (X r 1) A 0) (Cert.Spec.chunkMin (X r 0) (X r 1) A 1) := by
    rw [pay4_shape, minimumf_apply, c0, c1]
  have cq : k0_pay3 (F := Ideal) v0 v1 (ix2 r (0 : Fin 1)) = X r 0 * X r 0 + X r 1 * X r 1 := by
    rw [pay3_shape, addf_apply, mulf_apply, mulf_apply, h0 r, h1 r]
  unfold Cert.Spec.rowVal
  rw [c01, c2, c3, cq]

/-- The accumulation step: the stored value is what the buffer held plus the partial sum scaled by 2⁻¹³. -/
theorem pay2_eq (v84 : FVec Ideal S1x1 .f32) (v90 : Vec Ideal S1x1 .f32) (i : S1x1.Idx) :
    k0_pay2 (F := Ideal) v84 v90 i = v90 i + v84 i * Cert.Spec.scale := by
  rw [pay2_shape, addf_apply, mulf_apply, broadcast_apply, shapeCast_self, Ideal.ofBits_def, Cert.Spec.scale]

/-- The reset value is zero. -/
theorem pay1_eq (i : S1x1.Idx) : k0_pay1 (F := Ideal) i = 0 := by
  rw [pay1_shape, broadcast_apply, Ideal.ofBits_def, Ideal.ofBits_zero_f32]

end Cert.KernelIdeal.KerValue

end
-- ==== Proof.Rows.lean ====
/-
  An 8192 × 2 array of extended reals seen as 8192 rows of two coordinates: the form in which
  Proof/Spec.lean takes the two argument arrays.
-/
import Idealize.ShloMosaic.Lib.ValueIdx

noncomputable section

namespace Cert.Spec

open Idealize.ShloMosaic

/-- Row i, coordinate k of an 8192 × 2 array. -/
def rows (a : (⟨2, ![8192, 2]⟩ : Shape).Idx → EReal) : Fin 8192 → Fin 2 → EReal :=
  fun i k => a (ValueIdx.ix2 i k)

end Cert.Spec

end
-- ==== Proof.KIBlocks.lean ====
/-
  The blocks of the idealized kernel's two input windows, read at an index.

  Window 0 stages the first argument, an 8192 × 2 array, in blocks of 2048 × 2: at grid point t its block index
  is (t, 0), so row r, coordinate k of the block is row 2048·t + r, coordinate k of the array, and the array is
  as launched, no operation before the region writing it.  Window 1 stages the 3 × 8192 table whole: its block
  index is (0, 0) at every point, so the block is the table the region finds.  On each axis a block's coordinate
  in its array is the block index times the block's extent plus the coordinate inside the block.
-/
import proofs.«109082_g41154376630568_cont_8to1_b_1840_20_alg».proof.Proof.KIKit
import proofs.«109082_g41154376630568_cont_8to1_b_1840_20_alg».proof.Proof.Spec
import proofs.«109082_g41154376630568_cont_8to1_b_1840_20_alg».proof.Proof.Rows
import Idealize.ShloMosaic.Lib.ValueIdx
import Idealize.ShloMosaic.Lib.Pipeline.Value

set_option maxRecDepth 16384

noncomputable section

namespace Cert.KernelIdeal.KerValue

open Idealize.ShloMosaic Idealize.ShloMosaic.TcCoe Idealize.ShloMosaic.ValueIdx Idealize.SL.Sem
open Cert.KernelIdeal Cert.KernelIdeal.Gen Cert.KernelIdeal.Frm

/-- A grid point as one of the specification's four. -/
def pt (t : Fin cfg0.N) : Fin 4 := ⟨t.val, lt_of_lt_of_eq t.isLt N_0⟩

/-- Window 0's block index at point t is (t, 0), decided over the four points. -/
theorem index0 (t : Fin cfg0.N) : win0_0.index t 0 = t.val ∧ win0_0.index t 1 = 0 := by
  rcases fin_N0 t with rfl | rfl | rfl | rfl <;> decide

/-- Window 1's block index is (0, 0) at every point. -/
theorem index1 (t : Fin cfg0.N) : win0_1.index t 0 = 0 ∧ win0_1.index t 1 = 0 := by
  rcases fin_N0 t with rfl | rfl | rfl | rfl <;> decide

/-- Row r, coordinate k of the rows' block at point t is row 2048·t + r of the first argument. -/
theorem iblk0_apply (m : (ℓ : Loc nD τ sig) → Buf (Elt Ideal) ℓ) (c : Dev nD) (t : Fin cfg0.N) (r : Fin 2048) (k : Fin 2) :
    (iblk m c 0 t : S2048x2.Idx → EReal) (ix2 r k)
      = Cert.Spec.rows (m ((c : Thread nD τ).loc main_arg0)) (Cert.Spec.row (pt t) r) k := by
  have hi := index0 t
  unfold iblk
  rw [View.read_apply]
  show V m c main_arg0 _ = _
  rw [V_main_arg0 m c]
  show m (c.tc.loc main_arg0) _ = m (c.tc.loc main_arg0) (ix2 (Cert.Spec.row (pt t) r) k)
  congr 1
  funext a
  apply Fin.ext
  match a with
  | ⟨0, _⟩ => show win0_0.index t 0 * 2048 + 1 * r.val = 2048 * t.val + r.val; rw [hi.1]; omega
  | ⟨1, _⟩ => show win0_0.index t 1 * 2 + 1 * k.val = k.val; rw [hi.2]; omega

/-- The table's block at every point is the whole table the region finds. -/
theorem iblk1_apply (m : (ℓ : Loc nD τ sig) → Buf (Elt Ideal) ℓ) (c : Dev nD) (t : Fin cfg0.N) (a : Fin 3) (j : Fin 8192) :
    (iblk m c 1 t : S3x8192.Idx → EReal) (ix2 a j) = (V m c main_v14 : S3x8192.Idx → EReal) (ix2 a j) := by
  have hi := index1 t
  unfold iblk
  rw [View.read_apply]
  show V m c main_v14 _ = V m c main_v14 (ix2 a j)
  refine congrArg (V m c main_v14) (funext fun d => Fin.ext ?_)
  match d with
  | ⟨0, _⟩ => show win0_1.index t 0 * 3 + 1 * a.val = a.val; rw [hi.1]; omega
  | ⟨1, _⟩ => show win0_1.index t 1 * 8192 + 1 * j.val = j.val; rw [hi.2]; omega

end Cert.KernelIdeal.KerValue

end
-- ==== Proof.KITable.lean ====
/-
  What the idealized kernel's region finds in its table when it is entered.

  Before the region the program lays out, with seventeen array operations on its second argument q (8192 rows
  of two coordinates), a 3 × 8192 table: the two columns of q are cut out and flattened, each is scaled by the
  constant -2, their squares are added, each of the three vectors is made one row, and the three rows are
  stacked. Here: the contents of the table's buffer at the region's entry is that composed term of q; each
  array operation of the term read at an index; and hence row a, column j of the table is the specification's
  table of q's rows: (-2)·q_j0, (-2)·q_j1, q_j0·q_j0 + q_j1·q_j1.
-/
import proofs.«109082_g41154376630568_cont_8to1_b_1840_20_alg».proof.Proof.KIKit
import proofs.«109082_g41154376630568_cont_8to1_b_1840_20_alg».proof.Proof.Spec
import proofs.«109082_g41154376630568_cont_8to1_b_1840_20_alg».proof.Proof.Rows
import Idealize.ShloMosaic.Lib.ValueIdx
import Idealize.ShloMosaic.Lib.StableHlo.Run
import Idealize.ShloMosaic.Lib.Pipeline.Value
import Idealize.ShloMosaic.Lib.ValueLayout
import Idealize.ShloMosaic.Lib.IdealHost

set_option maxRecDepth 16384

noncomputable section

namespace Cert.KernelIdeal.KerValue

open Idealize.ShloMosaic Idealize.ShloMosaic.TcCoe Idealize.ShloMosaic.ValueIdx Idealize.SL.Sem
open Cert.KernelIdeal Cert.KernelIdeal.Gen Cert.KernelIdeal.Frm

/-! ## A stack of three arrays: its result -/

/-- An operation on a literal family of three operands leaves its result buffer at its function of the three
    operands' contents, each read at its own buffer. -/
theorem nary3_result {τ : Topo} {sig : RefSig} {Val : EltTy → Type} {x a b y : Ref sig .tc}
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

/-! ## The array operations read at an index -/

section Reads
variable {α : Type}

/-- Three one-row arrays stacked along the rows, read at row a: the a-th array at its one row. -/
theorem stack3_apply (r0 r1 r2 : S1x8192.Idx → α)
    (h : Shape.Concatenates (([⟨S1x8192, r0⟩, ⟨S1x8192, r1⟩, ⟨S1x8192, r2⟩] : List ((s : Shape) × (s.Idx → α))).map (·.1)) S3x8192 0)
    (a : Fin 3) (j : Fin 8192) :
    concatenate S3x8192 0 [⟨S1x8192, r0⟩, ⟨S1x8192, r1⟩, ⟨S1x8192, r2⟩] h (ix2 a j)
      = (match a with | 0 => r0 | 1 => r1 | 2 => r2) (ix2 (0 : Fin 1) j) := by
  match a with
  | ⟨0, _⟩ =>
    exact concatenate_apply_piece 0 _ h (ix2 _ j) 0 (show 0 < 3 by decide) S1x8192 r0 rfl rfl 0 rfl (ix2 (0 : Fin 1) j)
      (fun b hb => match b with | ⟨0, _⟩ => absurd rfl hb | ⟨1, _⟩ => rfl) rfl
  | ⟨1, _⟩ =>
    exact concatenate_apply_piece 0 _ h (ix2 _ j) 1 (show 1 < 3 by decide) S1x8192 r1 rfl rfl 1 rfl (ix2 (0 : Fin 1) j)
      (fun b hb => match b with | ⟨0, _⟩ => absurd rfl hb | ⟨1, _⟩ => rfl) rfl
  | ⟨2, _⟩ =>
    exact concatenate_apply_piece 0 _ h (ix2 _ j) 2 (show 2 < 3 by decide) S1x8192 r2 rfl rfl 2 rfl (ix2 (0 : Fin 1) j)
      (fun b hb => match b with | ⟨0, _⟩ => absurd rfl hb | ⟨1, _⟩ => rfl) rfl

/-- A vector made one row, read at that row's column j: the vector at j. -/
theorem row_apply (h : S8192.BroadcastsInDim S1x8192 (![1] : Fin 1 → Fin S1x8192.rank)) (x : S8192.Idx → α) (j : Fin 8192) :
    broadcastInDim S1x8192 ![1] h x (ix2 (0 : Fin 1) j) = x (ix1 j) :=
  broadcastInDim_apply ![1] h x (ix2 (0 : Fin 1) j) (ix1 j) (fun a => match a with | ⟨0, _⟩ => rfl)

/-- A scalar spread over a vector, read anywhere: the scalar. -/
theorem splat_apply (h : S_.BroadcastsInDim S8192 (![] : Fin 0 → Fin S8192.rank)) (x : S_.Idx → α) (j : Fin 8192) :
    broadcastInDim S8192 ![] h x (ix1 j) = x ix0 :=
  broadcastInDim_scalar_apply h x (ix1 j)

/-- Column k of an 8192 × 2 array, cut out and flattened, read at j: the array at row j, column k. -/
theorem column_apply (k : Nat) (hk : k < 2) (x : S8192x2.Idx → α) (hs : S8192x2.Slices ![0, k] S8192x1) (hc : S8192x1.ShapeCasts S8192)
    (j : Fin 8192) :
    shapeCast S8192 (extractStridedSlice S8192x1 ![0, k] x hs) hc (ix1 j) = x (ix2 j (⟨k, hk⟩ : Fin 2)) := by
  refine (shapeCast_apply _ hc (ix1 j) (ix2 j (0 : Fin 1)) (by
    rw [Shape.rowMajor_val_two, Shape.rowMajor_val_one]; show j.val * 1 + 0 = j.val; omega)).trans ?_
  exact extractStridedSlice_apply ![0, k] x hs (ix2 j (0 : Fin 1)) (ix2 j (⟨k, hk⟩ : Fin 2)) (fun a => match a with
    | ⟨0, _⟩ => by show j.val = 0 + j.val; omega
    | ⟨1, _⟩ => by show k = k + 0; omega)

end Reads

/-! ## The table at the region's entry -/

/-- Column k of the second argument as a vector. -/
abbrev colOf (q : FVec Ideal S8192x2 .f32) : Fin 2 → FVec Ideal S8192 .f32
  | 0 => shapeCast S8192 (extractStridedSlice S8192x1 ![0, 0] q slices_S8192x2_S8192x1_0_0) shapeCasts_S8192x1_S8192
  | 1 => shapeCast S8192 (extractStridedSlice S8192x1 ![0, 1] q slices_S8192x2_S8192x1_0_1) shapeCasts_S8192x1_S8192

/-- The constant -2 spread over a vector. -/
abbrev negTwos : FVec Ideal S8192 .f32 :=
  broadcastInDim S8192 ![] bcast_S_S8192 (constant (F := Ideal) S_ .f32 0xC0000000#32)

/-- A vector made one row. -/
abbrev asRow (x : FVec Ideal S8192 .f32) : FVec Ideal S1x8192 .f32 :=
  broadcastInDim S1x8192 ![1] bcast_S8192_S1x8192_1 x

/-- The three rows of the table as the operations compute them from the second argument. -/
abbrev rowOf (q : FVec Ideal S8192x2 .f32) : Fin 3 → FVec Ideal S1x8192 .f32
  | 0 => asRow (mulf (F := Ideal) (φ := .f32) negTwos (colOf q 0))
  | 1 => asRow (mulf (F := Ideal) (φ := .f32) negTwos (colOf q 1))
  | 2 => asRow (addf (F := Ideal) (φ := .f32) (mulf (F := Ideal) (φ := .f32) (colOf q 0) (colOf q 0))
      (mulf (F := Ideal) (φ := .f32) (colOf q 1) (colOf q 1)))

/-- The table's buffer at the region's entry holds the seventeen operations' composed term of the second argument. -/
theorem table_term (m : (ℓ : Loc nD τ sig) → Buf (Elt Ideal) ℓ) (c : Dev nD) :
    (V m c main_v14 : S3x8192.Idx → EReal)
      = concatenate S3x8192 0
          ([⟨S1x8192, rowOf (m ((c : Thread nD τ).loc main_arg1)) 0⟩,
            ⟨S1x8192, rowOf (m ((c : Thread nD τ).loc main_arg1)) 1⟩,
            ⟨S1x8192, rowOf (m ((c : Thread nD τ).loc main_arg1)) 2⟩] : List ((s : Shape) × (s.Idx → EReal)))
          concatenates_S1x8192_S1x8192_S1x8192_S3x8192_d0 := by
  show StableHlo.after hostOps0 (fun b => m (c, b)) (Proc.devRef .tc main_v14) = _
  simp only [StableHlo.after_cons, StableHlo.after_nil]
  rw [nary3_result]
  repeat (first
    | rw [StableHlo.nullary_result] | rw [StableHlo.unary_result] | rw [StableHlo.binary_result] | rw [StableHlo.reshape_result]
    | (rw [StableHlo.nullary_result_ne]; rotate_left; decide)
    | (rw [StableHlo.unary_result_ne]; rotate_left; decide)
    | (rw [StableHlo.binary_result_ne]; rotate_left; decide)
    | (rw [StableHlo.reshape_result_ne]; rotate_left; decide)
    | (rw [StableHlo.nary_result_ne]; rotate_left; decide))
  rfl

/-- The spread constant read anywhere is the specification's constant -2: the same float word. -/
theorem negTwos_apply (j : Fin 8192) : negTwos (ix1 j) = Cert.Spec.negTwo :=
  splat_apply _ _ j

/-- Column k of the second argument read at j is its row j, coordinate k. -/
theorem colOf_apply (q : FVec Ideal S8192x2 .f32) (k : Fin 2) (j : Fin 8192) : colOf q k (ix1 j) = q (ix2 j k) := by
  match k with
  | ⟨0, _⟩ => exact column_apply 0 (by decide) q _ _ j
  | ⟨1, _⟩ => exact column_apply 1 (by decide) q _ _ j

/-- Row a, column j of the table the region finds is the specification's table of the second argument's rows. -/
theorem table_eq (m : (ℓ : Loc nD τ sig) → Buf (Elt Ideal) ℓ) (c : Dev nD) (a : Fin 3) (j : Fin 8192) :
    (V m c main_v14 : S3x8192.Idx → EReal) (ix2 a j)
      = Cert.Spec.auxOf (Cert.Spec.rows (m ((c : Thread nD τ).loc main_arg1))) a j := by
  refine (congrFun (table_term m c) (ix2 a j)).trans ?_
  refine (stack3_apply _ _ _ _ a j).trans ?_
  match a with
  | ⟨0, _⟩ =>
    refine (row_apply _ _ j).trans ?_
    show negTwos (ix1 j) * colOf _ 0 (ix1 j) = Cert.Spec.negTwo * _
    rw [negTwos_apply, colOf_apply]; rfl
  | ⟨1, _⟩ =>
    refine (row_apply _ _ j).trans ?_
    show negTwos (ix1 j) * colOf _ 1 (ix1 j) = Cert.Spec.negTwo * _
    rw [negTwos_apply, colOf_apply]; rfl
  | ⟨2, _⟩ =>
    refine (row_apply _ _ j).trans ?_
    show colOf _ 0 (ix1 j) * colOf _ 0 (ix1 j) + colOf _ 1 (ix1 j) * colOf _ 1 (ix1 j) = _
    rw [colOf_apply, colOf_apply]; rfl

end Cert.KernelIdeal.KerValue

end
-- ==== Proof.KIFinal.lean ====
/-
  The kernel's result array after the run: what its result staging buffer held after the last grid point.

  The 1 × 1 result array is the region's window 2. Its block is the whole array, at block index (0, 0) at each of
  the four grid points, and it is written back once, at the last point. So the array ends holding what the
  buffer held then; what the body computes does not enter.
-/
import proofs.«109082_g41154376630568_cont_8to1_b_1840_20_alg».proof.Proof.KIFrame
import Idealize.ShloMosaic.Lib.Pipeline.Value
import Idealize.ShloMosaic.Lib.ValueIdx
import Idealize.ShloMosaic.Lib.Tactic

noncomputable section

namespace Cert.KernelIdeal.KerValue

open Idealize.ShloMosaic Idealize.ShloMosaic.TcCoe Idealize.ShloMosaic.ValueIdx Idealize.SL.Sem Cert.KernelIdeal Cert.KernelIdeal.Gen Cert.KernelIdeal.Frm
open Idealize.ShloMosaic.Pipeline (Dat)

variable {F : FTy → Type} [FloatOps F]

/-- The last of the four grid points. -/
theorem three_lt : 3 < cfg0.N := by rw [show cfg0.N = 4 from N_0]; decide

/-- A point that writes the result block back is the last one. -/
theorem eq_last_of_flush (t : Fin cfg0.N) (hf : (cfg0.win 2).flush t = true) : t = t0_3 := by
  have hN : cfg0.N = 4 := N_0
  have h3 : t.val % 4 = 3 := (flush0_2 t).mp hf
  have hlt : t.val < cfg0.N := t.isLt
  exact Fin.ext (show t.val = 3 by omega)

/-- At the last point the result block sits at offset zero of the array on both axes. -/
theorem off_zero : (fun a => win0_2.index t0_3 a * main_v15.ty.shape.size a) = fun _ => 0 :=
  funext fun a => by fin_cases a <;> decide +kernel

/-- The one write-back writes what the buffer held after the last point: the block at offset zero, of the
    array's own sizes, read out of an array's contents is those contents. -/
theorem flushed_eq (m : (ℓ : Loc nD τ sig) → Buf (Elt F) ℓ) (c : Dev nD) (t : Fin cfg0.N)
    (hf : (cfg0.win 2).flush t = true) :
    (dats m 0 c).flushed 2 t
      = ((cfg0.win 2).blk t).view.read (Elt F)
          (outsAt0 m c 3 three_lt : Buf (Elt F) ((c : Thread nD τ).loc main_v15)) := by
  obtain rfl : t = t0_3 := eq_last_of_flush t hf
  show (cfg0.win 2).cut (grid0.coords t0_3) ((dats m 0 c).after 2 t0_3) = _
  rw [after0_2]
  exact (Memref.read_access_unit_zero (Elt F) main_v15 off_zero (fun a => by rw [congrFun off_zero a]; simp)
    (outsAt0 m c 3 three_lt)).symm

/-- The result array ends holding what the result buffer held after the last point: that point's write-back is the
    only one, and its block is the whole array. -/
theorem arrAt_eq (m : (ℓ : Loc nD τ sig) → Buf (Elt F) ℓ) (c : Dev nD) :
    (dats m 0 c).arrAt 2 cfg0.N = (outsAt0 m c 3 three_lt : Buf (Elt F) ((c : Thread nD τ).loc main_v15)) :=
  (dats m 0 c).arrAt_eq_of_cover 2 (outsAt0 m c 3 three_lt) (flushed_eq m c) fun i =>
    ⟨t0_3, (flush0_2 t0_3).mpr rfl, by
      show i ∈ ((View.whole main_v15).slice (win0_2.rect t0_3)).set
      rw [View.set_slice_whole]
      exact View.mem_set_unit_zero (S := S1x1) off_zero _ i⟩

end Cert.KernelIdeal.KerValue

end
-- ==== Proof.KITail.lean ====
/-
  The one array operation after the kernel's region: a reshape of the region's 1 × 1 result array into the scalar
  result. A 1 × 1 array and a scalar have one entry each, at row-major position 0, so the scalar is that entry.
-/
import proofs.«109082_g41154376630568_cont_8to1_b_1840_20_alg».proof.Proof.KIKit
import Idealize.ShloMosaic.Lib.ValueIdx
import Idealize.ShloMosaic.Lib.StableHlo.Run
import Idealize.ShloMosaic.Lib.Pipeline.Value
import Idealize.ShloMosaic.Lib.ValueLayout

noncomputable section

namespace Cert.KernelIdeal.KerValue

open Idealize.ShloMosaic Idealize.ShloMosaic.TcCoe Idealize.ShloMosaic.ValueIdx Idealize.SL.Sem
open Cert.KernelIdeal Cert.KernelIdeal.Gen Cert.KernelIdeal.Frm
open Idealize.ShloMosaic.Pipeline (Dat)

variable {F : FTy → Type} [FloatOps F]

/-- The scalar shape has one element: its row-major position is 0. -/
theorem rowMajor_scalar (i : S_.Idx) : (S_.rowMajor i).val = 0 := by
  have h1 : S_.numel = 1 := Shape.numel_eq_one fun a => a.elim0
  have h2 := (S_.rowMajor i).isLt
  omega

/-- After the reshape the scalar result is the one entry of the region's result array. -/
theorem tail_eq (m : (ℓ : Loc nD τ sig) → Buf (Elt F) ℓ)
    (dats : (p : Fin 1) → (c : Dev nD) → Dat τ (Elt F) Unit ℕ (UR sig nD τ) ℕ (cfgs p) c) (c : Dev nD) (i : S_.Idx) :
    (Pipeline.afterTail₀ cfgs dats 0 (V0 m) [hostOps1] c main_v16 : S_.Idx → Elt F .f32) i
      = ((dats 0 c).arrAt 2 cfg0.N : S1x1.Idx → Elt F .f32) (ix2 0 0) := by
  -- the scalar buffer after the reshape is the shape cast of window 2's array as the region leaves it
  have e : Pipeline.afterTail₀ cfgs dats 0 (V0 m) [hostOps1] c main_v16
      = fun j => shapeCast S_ ((dats 0 c).arrAt 2 cfg0.N : S1x1.Idx → Elt F .f32) shapeCasts_S1x1_S_ j := by
    unfold Pipeline.afterTail₀
    show StableHlo.after hostOps1 _ (Proc.devRef .tc main_v16) = _
    after_results
    rw [Pipeline.withArrays_arr spec0 launch0.win.arr_inj c _ _ 2]
    rfl
  rw [e]
  -- both shapes have one entry, at row-major position 0
  exact shapeCast_apply _ _ i (ix2 0 0) (by
    rw [Shape.rowMajor_val_two, rowMajor_scalar]
    show (0 : ℕ) * 1 + 0 = 0
    rfl)

end Cert.KernelIdeal.KerValue
-- ==== Proof.KIValue.lean ====
/-
  The idealized kernel's value: its run ends with the specification's kerVal of the two argument arrays.

  At the extended reals, what the body's stores leave in the 1 × 1 result buffer is: at the first grid point,
  zero plus the point's partial sum scaled by 2⁻¹³; at a later point, what the buffer held plus that point's
  scaled partial sum — the partial sum being, over the point's 2048 rows, the root of the clamped least
  squared distance to a column of the table (Proof/Payload.lean reads the body's arithmetic so). By induction
  on the point the buffer holds the ordered running sum. A point's rows are rows 2048·t … 2048·t + 2047 of
  the first argument and its table is the table laid out from the second argument (Proof/KIBlocks.lean,
  Proof/KITable.lean), so the running sum after the last point is the specification's value; the result array
  ends holding it (Proof/KIFinal.lean) and the reshape after the region hands its one entry to the scalar
  result (Proof/KITail.lean).
-/
import proofs.«109082_g41154376630568_cont_8to1_b_1840_20_alg».proof.Proof.KIFrame
import proofs.«109082_g41154376630568_cont_8to1_b_1840_20_alg».proof.Proof.Payload
import proofs.«109082_g41154376630568_cont_8to1_b_1840_20_alg».proof.Proof.KIBlocks
import proofs.«109082_g41154376630568_cont_8to1_b_1840_20_alg».proof.Proof.KITable
import proofs.«109082_g41154376630568_cont_8to1_b_1840_20_alg».proof.Proof.KIFinal
import proofs.«109082_g41154376630568_cont_8to1_b_1840_20_alg».proof.Proof.KITail
import proofs.«109082_g41154376630568_cont_8to1_b_1840_20_alg».proof.Proof.Spec
import proofs.«109082_g41154376630568_cont_8to1_b_1840_20_alg».proof.Proof.Rows
import Idealize.ShloMosaic.Lib.Pipeline.Value
import Idealize.ShloMosaic.Lib.ValueIdx
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.KerValue

open Cert.KernelIdeal Cert.KernelIdeal.Gen Cert.KernelIdeal.Frm

variable (m : (ℓ : Loc nD τ sig) → Buf (Elt Ideal) ℓ) (ρ : Dev nD → PrngReg)

theorem hz2 : (![0, 0] : Fin 2 → Nat) = fun _ => 0 := funext fun a => by fin_cases a <;> rfl

/-- One grid point's partial sum from its two input blocks: over the block's 2048 rows, the row value of the
    row's two coordinates against the table. -/
def part (x0 : Vec Ideal S2048x2 .f32) (x1 : Vec Ideal S3x8192 .f32) : EReal :=
  ∑ r : Fin 2048, Cert.Spec.rowVal (x0 (ix2 r 0)) (x0 (ix2 r 1)) (fun a j => x1 (ix2 a j))

section Pieces
variable {F : FTy → Type} [FloatOps F]

/-- The body's partial-sum value on the point's two input blocks: its arithmetic over the rows' two loaded
    columns and the table's twelve loaded stretches. -/
def pay (x0 : Vec F S2048x2 .f32) (x1 : Vec F S3x8192 .f32) : FVec F S1x1 .f32 :=
  k0_pay5 (View.ld x0 (Rect.unit ![0, 0] ![2048, 1] inb_S2048x2_S2048x1_0_0))
    (View.ld x0 (Rect.unit ![0, 1] ![2048, 1] inb_S2048x2_S2048x1_0_1))
    (k0_pay3 (View.ld x0 (Rect.unit ![0, 0] ![2048, 1] inb_S2048x2_S2048x1_0_0))
      (View.ld x0 (Rect.unit ![0, 1] ![2048, 1] inb_S2048x2_S2048x1_0_1)))
    (k0_pay4 (View.ld x0 (Rect.unit ![0, 0] ![2048, 1] inb_S2048x2_S2048x1_0_0))
      (View.ld x0 (Rect.unit ![0, 1] ![2048, 1] inb_S2048x2_S2048x1_0_1))
      (View.ld x1 (Rect.unit ![0, 0] ![1, 2048] inb_S3x8192_S1x2048_0_0))
      (View.ld x1 (Rect.unit ![1, 0] ![1, 2048] inb_S3x8192_S1x2048_1_0))
      (View.ld x1 (Rect.unit ![2, 0] ![1, 2048] inb_S3x8192_S1x2048_2_0))
      (View.ld x1 (Rect.unit ![0, 2048] ![1, 2048] inb_S3x8192_S1x2048_0_2048))
      (View.ld x1 (Rect.unit ![1, 2048] ![1, 2048] inb_S3x8192_S1x2048_1_2048))
      (View.ld x1 (Rect.unit ![2, 2048] ![1, 2048] inb_S3x8192_S1x2048_2_2048)))
    (View.ld x1 (Rect.unit ![0, 4096] ![1, 2048] inb_S3x8192_S1x2048_0_4096))
    (View.ld x1 (Rect.unit ![1, 4096] ![1, 2048] inb_S3x8192_S1x2048_1_4096))
    (View.ld x1 (Rect.unit ![2, 4096] ![1, 2048] inb_S3x8192_S1x2048_2_4096))
    (View.ld x1 (Rect.unit ![0, 6144] ![1, 2048] inb_S3x8192_S1x2048_0_6144))
    (View.ld x1 (Rect.unit ![1, 6144] ![1, 2048] inb_S3x8192_S1x2048_1_6144))
    (View.ld x1 (Rect.unit ![2, 6144] ![1, 2048] inb_S3x8192_S1x2048_2_6144))

/-- A later point leaves, in the result buffer holding `xo`, the accumulation step of `xo` and the point's
    partial-sum value: its one covering store's payload, whose loads read the whole buffers. -/
theorem out_B_pay (c : Dev nD) (i : grid0.Coords) (a1 : Memref sig .tc .vmem S2048x2 .f32) (h1 : a1.IsWhole)
    (a2 : Memref sig .tc .vmem S3x8192 .f32) (h2 : a2.IsWhole) (a3 : Memref sig .tc .vmem S1x1 .f32) (h3 : a3.IsWhole)
    (hc : ¬cond0_0 i) (x0 : Vec F S2048x2 .f32) (x1 : Vec F S3x8192 .f32) (xo : Vec F S1x1 .f32) :
    out0_B_2 c i a1 h1 a2 h2 a3 h3 hc x0 x1 xo = k0_pay2 (pay x0 x1) xo := by
  unfold out0_B_2
  rw [View.read_writes_eq_canon _ _ _ (cover0_B_2 c i a1 h1 a2 h2 a3 h3 hc x0 x1 xo)]
  unfold kernelRun0_B
  dsimp only
  sl_unfold_words
  rw [View.canon_unit_zero (S := S1x1) hz2]
  simp only [View.readAt_eq_ld, h1.read_unread, h2.read_unread, h3.read_unread, View.ld_unit_zero (S := S1x1) hz2]
  rfl

/-- The first point stores zero, reads it back, and leaves the accumulation step of that zero and the point's
    partial-sum value. -/
theorem out_A_pay (c : Dev nD) (i : grid0.Coords) (a1 : Memref sig .tc .vmem S2048x2 .f32) (h1 : a1.IsWhole)
    (a2 : Memref sig .tc .vmem S3x8192 .f32) (h2 : a2.IsWhole) (a3 : Memref sig .tc .vmem S1x1 .f32) (h3 : a3.IsWhole)
    (hc : cond0_0 i) (x0 : Vec F S2048x2 .f32) (x1 : Vec F S3x8192 .f32) :
    out0_A_2 c i a1 h1 a2 h2 a3 h3 hc x0 x1 = k0_pay2 (pay x0 x1) k0_pay1 := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) hz2, View.readCov_unit_zero (S := S1x1) _ hz2]
  simp only [View.readAt_eq_ld, h1.read_unread, h2.read_unread, View.ld_unit_zero (S := S1x1) hz2]
  rfl

/-- A loaded column of the rows' block, at a row, is the block there. -/
theorem ld_col (x0 : Vec F S2048x2 .f32) (o : Nat) (k : Fin 2) (ho : o = k.val)
    (inb : ∀ a, (![0, o] : Fin 2 → Nat) a + (![2048, 1] : Fin 2 → Nat) a ≤ S2048x2.size a) (r : Fin 2048) :
    View.ld x0 (Rect.unit (s := S2048x2) ![0, o] ![2048, 1] inb) (ix2 r (0 : Fin 1)) = x0 (ix2 r k) := by
  subst ho
  show x0 _ = x0 _
  congr 1
  funext b
  apply Fin.ext
  match b with
  | ⟨0, _⟩ => show 0 + 1 * r.val = r.val; omega
  | ⟨1, _⟩ => show k.val + 1 * 0 = k.val; omega

/-- A loaded stretch of a table row, at a column of the stretch, is the table at that row and column. -/
theorem ld_tab (x1 : Vec F S3x8192 .f32) (o0 o1 : Nat) (a : Fin 3) (s : Fin 4) (ha : o0 = a.val) (hs : o1 = 2048 * s.val)
    (inb : ∀ b, (![o0, o1] : Fin 2 → Nat) b + (![1, 2048] : Fin 2 → Nat) b ≤ S3x8192.size b) (j : Fin 2048) :
    View.ld x1 (Rect.unit (s := S3x8192) ![o0, o1] ![1, 2048] inb) (ix2 (0 : Fin 1) j) = x1 (ix2 a (Cert.Spec.col s j)) := by
  subst ha hs
  show x1 _ = x1 _
  congr 1
  funext b
  apply Fin.ext
  match b with
  | ⟨0, _⟩ => show a.val + 1 * 0 = a.val; omega
  | ⟨1, _⟩ => show 2048 * s.val + 1 * j.val = 2048 * s.val + j.val; omega

end Pieces

/-- At the extended reals the point's partial-sum value is, at its one index, the partial sum. -/
theorem pay_eq (x0 : Vec Ideal S2048x2 .f32) (x1 : Vec Ideal S3x8192 .f32) (y : S1x1.Idx) :
    pay (F := Ideal) x0 x1 y = part x0 x1 :=
  pay5_eq (fun r k => x0 (ix2 r k)) (fun a j => x1 (ix2 a j)) _ _ _ _ _ _ _ _ _ _ _ _ _ _
    (ld_col x0 0 0 rfl _) (ld_col x0 1 1 rfl _)
    (ld_tab x1 0 0 0 0 rfl rfl _) (ld_tab x1 1 0 1 0 rfl rfl _) (ld_tab x1 2 0 2 0 rfl rfl _)
    (ld_tab x1 0 2048 0 1 rfl rfl _) (ld_tab x1 1 2048 1 1 rfl rfl _) (ld_tab x1 2 2048 2 1 rfl rfl _)
    (ld_tab x1 0 4096 0 2 rfl rfl _) (ld_tab x1 1 4096 1 2 rfl rfl _) (ld_tab x1 2 4096 2 2 rfl rfl _)
    (ld_tab x1 0 6144 0 3 rfl rfl _) (ld_tab x1 1 6144 1 3 rfl rfl _) (ld_tab x1 2 6144 2 3 rfl rfl _) y

/-- A later point leaves what the buffer held plus the point's partial sum scaled by 2⁻¹³. -/
theorem out_B (c : Dev nD) (i : grid0.Coords) (a1 : Memref sig .tc .vmem S2048x2 .f32) (h1 : a1.IsWhole)
    (a2 : Memref sig .tc .vmem S3x8192 .f32) (h2 : a2.IsWhole) (a3 : Memref sig .tc .vmem S1x1 .f32) (h3 : a3.IsWhole)
    (hc : ¬cond0_0 i) (x0 : Vec Ideal S2048x2 .f32) (x1 : Vec Ideal S3x8192 .f32) (xo : Vec Ideal S1x1 .f32) (y : S1x1.Idx) :
    out0_B_2 (F := Ideal) c i a1 h1 a2 h2 a3 h3 hc x0 x1 xo y = xo y + part x0 x1 * Cert.Spec.scale := by
  rw [out_B_pay, pay2_eq, pay_eq]

/-- The first point leaves zero plus the point's partial sum scaled by 2⁻¹³. -/
theorem out_A (c : Dev nD) (i : grid0.Coords) (a1 : Memref sig .tc .vmem S2048x2 .f32) (h1 : a1.IsWhole)
    (a2 : Memref sig .tc .vmem S3x8192 .f32) (h2 : a2.IsWhole) (a3 : Memref sig .tc .vmem S1x1 .f32) (h3 : a3.IsWhole)
    (hc : cond0_0 i) (x0 : Vec Ideal S2048x2 .f32) (x1 : Vec Ideal S3x8192 .f32) (y : S1x1.Idx) :
    out0_A_2 (F := Ideal) c i a1 h1 a2 h2 a3 h3 hc x0 x1 y = 0 + part x0 x1 * Cert.Spec.scale := by
  rw [out_A_pay, pay2_eq, pay1_eq, pay_eq]

/-- The ordered running sum after point n: zero plus the first point's scaled partial sum, then each later
    point's added in turn. -/
def chain (c : Dev nD) : (n : ℕ) → n < cfg0.N → EReal
  | 0, h => 0 + part (iblk m c 0 ⟨0, h⟩) (iblk m c 1 ⟨0, h⟩) * Cert.Spec.scale
  | n + 1, h => chain c n (Nat.lt_of_succ_lt h) + part (iblk m c 0 ⟨n + 1, h⟩) (iblk m c 1 ⟨n + 1, h⟩) * Cert.Spec.scale

/-- What the result buffer holds after point n is the running sum, by induction on the point. -/
theorem outsAt_eq (c : Dev nD) : ∀ (n : ℕ) (h : n < cfg0.N) (y : S1x1.Idx), outsAt0 m c n h y = chain m c n h
  | 0, h, y => (congrFun (outsAt0_A m c ⟨0, h⟩ rfl) y).trans (out_A ..)
  | n + 1, h, y => by
    have hN : cfg0.N = 4 := N_0
    have hB : ¬(⟨n + 1, h⟩ : Fin cfg0.N).val % 4 = 0 := by dsimp only; omega
    rw [outsAt0_B m c ⟨n + 1, h⟩ hB, out_B]
    show outsAt0 m c n _ y + _ = chain m c n _ + _
    rw [outsAt_eq c n]

/-- A point's partial sum is the specification's block sum of the first argument's rows against the table of
    the second argument's rows. -/
theorem part_eq (c : Dev nD) (t : Fin cfg0.N) :
    part (iblk m c 0 t) (iblk m c 1 t)
      = Cert.Spec.blockSum (Cert.Spec.rows (m ((c : Thread nD τ).loc main_arg0)))
          (Cert.Spec.auxOf (Cert.Spec.rows (m ((c : Thread nD τ).loc main_arg1)))) (pt t) := by
  unfold part Cert.Spec.blockSum
  refine Finset.sum_congr rfl fun r _ => ?_
  rw [iblk0_apply m c t r 0, iblk0_apply m c t r 1]
  congr 1
  funext a j
  rw [iblk1_apply m c t a j, table_eq m c a j]

/-- The running sum after the last point is the specification's value. -/
theorem chain_last (c : Dev nD) :
    chain m c 3 three_lt = Cert.Spec.kerVal (Cert.Spec.rows (m ((c : Thread nD τ).loc main_arg0)))
      (Cert.Spec.rows (m ((c : Thread nD τ).loc main_arg1))) := by
  simp only [chain, part_eq]
  rfl

/-- Every weakly fair execution of the idealized kernel ends with its scalar result at the specification's value
    and both arguments unchanged. -/
theorem ker_run : θ_run (defs (F := Ideal)) (onTc (τ := τ) (main (F := Ideal))) ⟨m, fun _ => 0, ρ⟩ fun r => ∀ c : Dev nD,
      r.2.mem ((c.tc : Thread nD τ).loc main_v16)
          = (fun _ => Cert.Spec.kerVal (Cert.Spec.rows (m ((c.tc : Thread nD τ).loc main_arg0)))
                                        (Cert.Spec.rows (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v16 (Pipeline.mem_restRefs_of main_v16 (by decide) (by decide))).trans (funext fun i => by
        rw [tail_eq m (dats m) c i, arrAt_eq m c, outsAt_eq m c 3 three_lt, chain_last m c]),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.KerValue

end
-- ==== Proof.RefValue.lean ====
/-
  The reference's value: its run ends with the mean, over the rows of the first argument, of the least
  distance to a row of the second (Proof/Spec.lean's refVal of the two argument arrays).
-/
import proofs.«109082_g41154376630568_cont_8to1_b_1840_20_alg».proof.Proof.Gen.ReferenceIdeal.Run
import proofs.«109082_g41154376630568_cont_8to1_b_1840_20_alg».proof.Proof.Gen.ReferenceIdeal.Read
import proofs.«109082_g41154376630568_cont_8to1_b_1840_20_alg».proof.Proof.Spec
import proofs.«109082_g41154376630568_cont_8to1_b_1840_20_alg».proof.Proof.Rows
import Idealize.ShloMosaic.Lib.ValueIdx
import Idealize.ShloMosaic.Lib.ValueIdxRank1
import Idealize.ShloMosaic.PureOps.Ideal.Laws
import Idealize.ShloMosaic.PureOps.Reduce

noncomputable section

namespace Cert.ReferenceIdeal.RefValue

open Cert.ReferenceIdeal Cert.ReferenceIdeal.Gen Idealize.ShloMosaic Idealize.ShloMosaic.TcCoe Idealize.SL.Sem
open Idealize.ShloMosaic.ValueIdx

/-! ## The indices the stages read at

Entry (i, j, k) of the 8192 × 8192 × 2 array of differences reads the first argument at (i, k) and the second at
(j, k): the composed index functions of the four broadcasts say so. -/

/-- Through the two broadcasts of the first argument, entry (i, j, k) reads it at (i, k). -/
theorem idx_left (i j : Fin 8192) (k : Fin 2) :
    Read.idx_main_v0 (Read.idx_main_v2 (Read.idx_main_v6 (ix2 i j) k)) = ix2 i k :=
  funext fun a => Fin.ext (by match a with | ⟨0, _⟩ => rfl | ⟨1, _⟩ => rfl)

/-- Through the two broadcasts of the second argument, entry (i, j, k) reads it at (j, k). -/
theorem idx_right (i j : Fin 8192) (k : Fin 2) :
    Read.idx_main_v1 (Read.idx_main_v3 (Read.idx_main_v6 (ix2 i j) k)) = ix2 j k :=
  funext fun a => Fin.ext (by match a with | ⟨0, _⟩ => rfl | ⟨1, _⟩ => rfl)

/-! ## One squared difference, one distance -/

/-- The squared difference at (i, j, k) is that of coordinate k of row i of the first argument and row j of the
    second. -/
theorem sq_apply (x0 x1 : (⟨S8192x2, .f32⟩ : BufTy).Contents (Elt Ideal)) (i j : Fin 8192) (k : Fin 2) :
    Read.val_main_v5 (F := Ideal) x0 x1 (Read.idx_main_v6 (ix2 i j) k)
      = (Cert.Spec.rows x0 i k - Cert.Spec.rows x1 j k) * (Cert.Spec.rows x0 i k - Cert.Spec.rows x1 j k) := by
  rw [Read.val_main_v5_apply, Read.val_main_v4_apply, Read.val_main_v2_apply, Read.val_main_v0_apply,
    Read.val_main_v3_apply, Read.val_main_v1_apply, idx_left, idx_right]
  rfl

/-- The word of the sums' initial value is zero. -/
theorem cst_zero (u : S_.Idx) : Read.val_main_cst (F := Ideal) u = (0 : EReal) := by
  rw [Read.val_main_cst_apply, Ideal.ofBits_def, Ideal.ofBits_zero_f32]

/-- The distance at (i, j): the root of the sum, from zero, of the two squared differences. -/
theorem dist_apply (x0 x1 : (⟨S8192x2, .f32⟩ : BufTy).Contents (Elt Ideal)) (i j : Fin 8192) :
    Read.val_main_v7 (F := Ideal) x0 x1 (ix2 i j)
      = Ideal.sqrt (0 + ∑ k : Fin 2,
          (Cert.Spec.rows x0 i k - Cert.Spec.rows x1 j k) * (Cert.Spec.rows x0 i k - Cert.Spec.rows x1 j k)) := by
  rw [Read.val_main_v7_apply, Ideal.hostUnary_sqrt_def, Read.val_main_v6_apply, cst_zero]
  exact congrArg (fun s : EReal => Ideal.sqrt (0 + s)) (Finset.sum_congr rfl fun k _ => sq_apply x0 x1 i j k)

/-! ## The minimum over the second argument's rows -/

/-- The reduced index i with coordinate j put back on axis 1 is (i, j). -/
theorem lift_ix2 (h : S8192x8192.Reduces [1] S8192) (i : Fin 8192) (j : Fin (S8192x8192.size 1)) :
    h.lift (ix1 i) j = ix2 i (⟨j.val, j.isLt⟩ : Fin 8192) := by
  funext c; apply Fin.ext
  match c with
  | ⟨0, _⟩ => rfl
  | ⟨1, _⟩ => rfl

/-- The word of the minimum's initial value is +∞. -/
theorem cst_top (u : S_.Idx) : Read.val_main_cst_0 (F := Ideal) u = (⊤ : EReal) := by
  rw [Read.val_main_cst_0_apply, Ideal.ofBits_def]
  simp [Ideal.ofBits, Ideal.ieee]

/-- The stage the generated reading leaves out: at row i, the least, from +∞, of the distances to the 8192 rows
    of the second argument. -/
theorem min_apply (x0 x1 : (⟨S8192x2, .f32⟩ : BufTy).Contents (Elt Ideal)) (i : Fin 8192) :
    Read.val_main_v8 (F := Ideal) x0 x1 (ix1 i)
      = (Finset.univ : Finset (Fin 8192)).fold min ⊤ fun j => Read.val_main_v7 (F := Ideal) x0 x1 (ix2 i j) := by
  unfold Read.val_main_v8
  generalize Read.val_main_v7 (F := Ideal) x0 x1 = y
  have h : S8192x8192.Reduces [1] S8192 := by decide
  refine (Host.reduce_eq_fold_single (FloatOps.minimumf (F := Ideal) (φ := .f32)) y (Read.val_main_cst_0 (F := Ideal))
    reducesTo_S8192x8192_S8192_d1 h h_S_ (ix1 i)).trans ?_
  rw [cst_top]
  have hf : (y ∘ h.lift (ix1 i)) = fun j : Fin 8192 => y (ix2 i j) := funext fun j => congrArg y (lift_ix2 h i j)
  exact congrArg (fun f => Finset.fold min (⊤ : EReal) f (Finset.univ : Finset (Fin 8192))) hf

/-- Row i of the reference: the specification's least distance from row i of the first argument. -/
theorem row_apply (x0 x1 : (⟨S8192x2, .f32⟩ : BufTy).Contents (Elt Ideal)) (i : Fin 8192) :
    Read.val_main_v8 (F := Ideal) x0 x1 (ix1 i) = Cert.Spec.refRow (Cert.Spec.rows x0) (Cert.Spec.rows x1) i := by
  rw [min_apply]
  unfold Cert.Spec.refRow
  exact congrArg (fun f => Finset.fold min (⊤ : EReal) f (Finset.univ : Finset (Fin 8192)))
    (funext fun j => dist_apply x0 x1 i j)

/-! ## The mean -/

/-- The reference's last stage, at its one index, is the specification's value of the arguments' rows. -/
theorem val_eq (x0 x1 : (⟨S8192x2, .f32⟩ : BufTy).Contents (Elt Ideal)) (i : S_.Idx) :
    Cert.ReferenceIdeal.Read.val_main_v10 (F := Ideal) x0 x1 i = Cert.Spec.refVal (Cert.Spec.rows x0) (Cert.Spec.rows x1) := by
  rw [Read.val_main_v10_apply, Read.val_main_v9_apply, Read.val_main_cst_2_apply, Ideal.hostDivf_def, Ideal.ofBits_def]
  have h0 : Read.val_main_cst_1 (F := Ideal) (Shape.Idx.first h_S_) = (0 : EReal) := by
    rw [Read.val_main_cst_1_apply, Ideal.ofBits_def, Ideal.ofBits_zero_f32]
  rw [h0]
  have hs : (∑ j : S8192.Idx, Read.val_main_v8 (F := Ideal) x0 x1 j)
      = ∑ i : Fin 8192, Cert.Spec.refRow (Cert.Spec.rows x0) (Cert.Spec.rows x1) i := by
    rw [← Equiv.sum_comp (idxEquiv1 (n := 8192)).symm fun j => Read.val_main_v8 (F := Ideal) x0 x1 j]
    exact Finset.sum_congr rfl fun i _ => row_apply x0 x1 i
  rw [hs]
  rfl

/-! ## The run -/

/-- Every weakly fair execution of the reference ends with its result at the specification's value and its
    arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v10)
          = (fun _ => Cert.Spec.refVal (Cert.Spec.rows (m ((c.tc : Thread nD τ).loc main_arg0)))
                                        (Cert.Spec.rows (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono
    (fun _ h c => ⟨(h c).1.trans ((Read.val_main_v10_eq _ _).trans (funext fun i => val_eq _ _ i)), (h c).2⟩)
    (Cert.ReferenceIdeal.Value.run (F := Ideal) m ρ)

end Cert.ReferenceIdeal.RefValue

end
-- ==== Proof.Algebra.lean ====
/-
  The real-number law that joins the two programs of Proof/Spec.lean: on finite inputs the kernel's value and
  the reference's value are the same extended real.

  With real entries, the table's term at column j plus x² + y² is the squared distance d(j) from (x, y) to q_j.
  The least of the four stretch minima is attained at some column j₀ and lies below the term at every column,
  so d(j₀) ≤ d(j) for every j; d(j₀) ≥ 0, so the clamp at zero does nothing, and the root is monotone, so the
  reference's least root over j is the root of d(j₀) too.  Every row's value is then a real, and the outer
  identity is real arithmetic: four partial sums over 2048 rows, each times 2⁻¹³, added from zero, against the
  whole sum over 8192 rows divided by 8192.
-/
import proofs.«109082_g41154376630568_cont_8to1_b_1840_20_alg».proof.Proof.Spec
import Idealize.ShloMosaic.PureOps.Ideal
import Mathlib.Data.Finset.Fold
import Mathlib.Algebra.BigOperators.Fin
import Mathlib.Logic.Equiv.Fin.Basic
import Mathlib.Analysis.Real.Sqrt
import Mathlib.Order.MinMax

noncomputable section

namespace Cert.Spec

open Idealize.ShloMosaic

/-! ### The three float words -/

/-- Sign set, exponent field 128, significand zero: -(2²³)·2⁻²² = -2. -/
theorem negTwo_eq : negTwo = ((-2 : ℝ) : EReal) := by
  unfold negTwo
  simp [Ideal.ofBits, Ideal.ieee, -EReal.coe_mul]; norm_num

/-- Exponent field 114, significand zero: 2²³·2⁻³⁶ = 2⁻¹³ = 1/8192. -/
theorem scale_eq : scale = ((1 / 8192 : ℝ) : EReal) := by
  unfold scale
  simp [Ideal.ofBits, Ideal.ieee, -EReal.coe_mul]; norm_num

/-- Exponent field 140, significand zero: 2²³·2⁻¹⁰ = 2¹³ = 8192. -/
theorem count_eq : count = ((8192 : ℝ) : EReal) := by
  unfold count
  simp [Ideal.ofBits, Ideal.ieee, -EReal.coe_mul]; norm_num

/-! ### A fold of min from ⊤, by its universal property -/

/-- The fold lies below each of its elements. -/
theorem foldMin_le {ι : Type} (s : Finset ι) (f : ι → EReal) {j : ι} (hj : j ∈ s) :
    s.fold min ⊤ f ≤ f j :=
  (Finset.fold_min_le _).mpr (Or.inr ⟨j, hj, le_rfl⟩)

/-- Whatever lies below every element lies below the fold. -/
theorem le_foldMin {ι : Type} (s : Finset ι) (f : ι → EReal) {c : EReal} (h : ∀ j ∈ s, c ≤ f j) :
    c ≤ s.fold min ⊤ f :=
  (Finset.le_fold_min _).mpr ⟨le_top, h⟩

/-- Over a nonempty finite set the fold is one of its elements. -/
theorem foldMin_attained {ι : Type} (s : Finset ι) (hs : s.Nonempty) (f : ι → EReal) :
    ∃ j ∈ s, s.fold min ⊤ f = f j := by
  rcases (Finset.fold_min_le (s := s) (b := (⊤ : EReal)) (f := f) (s.fold min ⊤ f)).mp le_rfl with h | ⟨x, hx, hxle⟩
  · obtain ⟨j, hj⟩ := hs
    exact ⟨j, hj, le_antisymm (foldMin_le s f hj) (le_trans le_top h)⟩
  · exact ⟨x, hx, le_antisymm (foldMin_le s f hx) hxle⟩

/-- A property both arguments of a minimum have, the minimum has. -/
theorem min_ind {P : EReal → Prop} {a b : EReal} (ha : P a) (hb : P b) : P (min a b) := by
  rcases min_choice a b with h | h <;> rw [h] <;> assumption

/-! ### The four stretches cover the 8192 columns -/

theorem exists_col (j : Fin 8192) : ∃ (a : Fin 4) (j' : Fin 2048), col a j' = j :=
  ⟨⟨j.val / 2048, by omega⟩, ⟨j.val % 2048, by omega⟩, Fin.ext (by simp only [col]; omega)⟩

/-- The least of the four stretch minima. -/
def allMin (x y : EReal) (A : Fin 3 → Fin 8192 → EReal) : EReal :=
  min (min (min (chunkMin x y A 0) (chunkMin x y A 1)) (chunkMin x y A 2)) (chunkMin x y A 3)

theorem allMin_le_chunkMin (x y : EReal) (A : Fin 3 → Fin 8192 → EReal) (a : Fin 4) :
    allMin x y A ≤ chunkMin x y A a :=
  match a with
  | 0 => le_trans (min_le_left _ _) (le_trans (min_le_left _ _) (min_le_left _ _))
  | 1 => le_trans (min_le_left _ _) (le_trans (min_le_left _ _) (min_le_right _ _))
  | 2 => le_trans (min_le_left _ _) (min_le_right _ _)
  | 3 => min_le_right _ _

/-- The least of the four stretch minima lies below the term at every column. -/
theorem allMin_le_term (x y : EReal) (A : Fin 3 → Fin 8192 → EReal) (j : Fin 8192) :
    allMin x y A ≤ term x y A j := by
  obtain ⟨a, j', rfl⟩ := exists_col j
  exact le_trans (allMin_le_chunkMin x y A a)
    (foldMin_le Finset.univ (fun j' => term x y A (col a j')) (Finset.mem_univ j'))

/-- The least of the four stretch minima is the term at some column. -/
theorem allMin_attained (x y : EReal) (A : Fin 3 → Fin 8192 → EReal) :
    ∃ j, allMin x y A = term x y A j := by
  have hc : ∀ a : Fin 4, ∃ j, chunkMin x y A a = term x y A j := fun a => by
    obtain ⟨j', _, h⟩ := foldMin_attained Finset.univ Finset.univ_nonempty (fun j' => term x y A (col a j'))
    exact ⟨col a j', h⟩
  exact min_ind (P := fun v => ∃ j, v = term x y A j)
    (min_ind (P := fun v => ∃ j, v = term x y A j)
      (min_ind (P := fun v => ∃ j, v = term x y A j) (hc 0) (hc 1)) (hc 2)) (hc 3)

/-! ### Real entries: the term, the squared distance, one row -/

/-- The squared distance from (x, y) to row j of Q. -/
def sqDist (x y : ℝ) (Q : Fin 8192 → Fin 2 → ℝ) (j : Fin 8192) : ℝ :=
  (x - Q j 0) * (x - Q j 0) + (y - Q j 1) * (y - Q j 1)

theorem sqDist_nonneg (x y : ℝ) (Q : Fin 8192 → Fin 2 → ℝ) (j : Fin 8192) : 0 ≤ sqDist x y Q j :=
  add_nonneg (mul_self_nonneg _) (mul_self_nonneg _)

/-- The table's term at real entries, as one real. -/
def termR (x y : ℝ) (Q : Fin 8192 → Fin 2 → ℝ) (j : Fin 8192) : ℝ :=
  x * (-2 * Q j 0) + (y * (-2 * Q j 1) + (Q j 0 * Q j 0 + Q j 1 * Q j 1))

theorem term_coe (x y : ℝ) (Q : Fin 8192 → Fin 2 → ℝ) (j : Fin 8192) :
    term (x : EReal) (y : EReal) (auxOf fun j k => ((Q j k : ℝ) : EReal)) j = ((termR x y Q j : ℝ) : EReal) := by
  show (x : EReal) * (negTwo * (Q j 0 : EReal)) + ((y : EReal) * (negTwo * (Q j 1 : EReal))
    + ((Q j 0 : EReal) * (Q j 0 : EReal) + (Q j 1 : EReal) * (Q j 1 : EReal))) = _
  rw [negTwo_eq]
  simp only [← EReal.coe_mul, ← EReal.coe_add]
  rfl

/-- The term plus x² + y² is the squared distance. -/
theorem termR_add (x y : ℝ) (Q : Fin 8192 → Fin 2 → ℝ) (j : Fin 8192) :
    termR x y Q j + (x * x + y * y) = sqDist x y Q j := by
  unfold termR sqDist; ring

/-- One row of the kernel at real entries: the root of the squared distance to a nearest row of Q. -/
theorem rowVal_coe (x y : ℝ) (Q : Fin 8192 → Fin 2 → ℝ) :
    ∃ j₀, (∀ j, sqDist x y Q j₀ ≤ sqDist x y Q j) ∧
      rowVal (x : EReal) (y : EReal) (auxOf fun j k => ((Q j k : ℝ) : EReal))
        = ((Real.sqrt (sqDist x y Q j₀) : ℝ) : EReal) := by
  obtain ⟨j₀, h₀⟩ := allMin_attained (x : EReal) (y : EReal) (auxOf fun j k => ((Q j k : ℝ) : EReal))
  have hle := allMin_le_term (x : EReal) (y : EReal) (auxOf fun j k => ((Q j k : ℝ) : EReal))
  rw [h₀] at hle
  rw [term_coe] at h₀
  refine ⟨j₀, fun j => ?_, ?_⟩
  · have h := hle j
    rw [term_coe, term_coe, EReal.coe_le_coe_iff] at h
    rw [← termR_add, ← termR_add]
    exact add_le_add h le_rfl
  · show Ideal.sqrt (max (allMin (x : EReal) (y : EReal) (auxOf fun j k => ((Q j k : ℝ) : EReal))
      + ((x : EReal) * (x : EReal) + (y : EReal) * (y : EReal))) 0) = _
    rw [h₀]
    simp only [← EReal.coe_mul, ← EReal.coe_add]
    rw [termR_add, max_eq_left (by exact_mod_cast sqDist_nonneg x y Q j₀), Ideal.sqrt_coe,
      if_neg (not_lt.mpr (sqDist_nonneg x y Q j₀))]

/-- One row of the reference at real entries: the same root, once j₀ is a nearest row of Q. -/
theorem refRow_coe (P Q : Fin 8192 → Fin 2 → ℝ) (i j₀ : Fin 8192)
    (hmin : ∀ j, sqDist (P i 0) (P i 1) Q j₀ ≤ sqDist (P i 0) (P i 1) Q j) :
    refRow (fun i k => ((P i k : ℝ) : EReal)) (fun j k => ((Q j k : ℝ) : EReal)) i
      = ((Real.sqrt (sqDist (P i 0) (P i 1) Q j₀) : ℝ) : EReal) := by
  have hf : ∀ j : Fin 8192,
      Ideal.sqrt (0 + ∑ k : Fin 2, ((P i k : EReal) - (Q j k : EReal)) * ((P i k : EReal) - (Q j k : EReal)))
        = ((Real.sqrt (sqDist (P i 0) (P i 1) Q j) : ℝ) : EReal) := fun j => by
    rw [Fin.sum_univ_two, zero_add]
    simp only [← EReal.coe_sub, ← EReal.coe_mul, ← EReal.coe_add]
    rw [Ideal.sqrt_coe]
    exact if_neg (not_lt.mpr (sqDist_nonneg (P i 0) (P i 1) Q j))
  show (Finset.univ : Finset (Fin 8192)).fold min ⊤ (fun j =>
    Ideal.sqrt (0 + ∑ k : Fin 2, ((P i k : EReal) - (Q j k : EReal)) * ((P i k : EReal) - (Q j k : EReal)))) = _
  simp only [hf]
  refine le_antisymm (foldMin_le Finset.univ _ (Finset.mem_univ j₀)) (le_foldMin Finset.univ _ fun j _ => ?_)
  exact EReal.coe_le_coe_iff.mpr (Real.sqrt_le_sqrt (hmin j))

/-! ### The outer sums -/

/-- The coercion of a finite sum of reals. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The 8192 rows are the four grid points' 2048 rows each. -/
theorem sum_rows (R : Fin 8192 → ℝ) :
    ∑ i, R i = ∑ r, R (row 0 r) + ∑ r, R (row 1 r) + ∑ r, R (row 2 r) + ∑ r, R (row 3 r) := by
  have hr : ∀ (t : Fin 4) (r : Fin 2048), (finProdFinEquiv (t, r) : Fin (4 * 2048)) = row t r := fun t r =>
    Fin.ext (by simp only [finProdFinEquiv, Equiv.coe_fn_mk, row]; omega)
  rw [← Equiv.sum_comp (finProdFinEquiv : Fin 4 × Fin 2048 ≃ Fin (4 * 2048)) R, Fintype.sum_prod_type,
    Fin.sum_univ_four]
  simp only [hr]

/-! ### The two values agree -/

theorem kerVal_eq_refVal (p q : Fin 8192 → Fin 2 → EReal)
    (hp : ∀ i k, ∃ r : ℝ, p i k = (r : EReal)) (hq : ∀ j k, ∃ r : ℝ, q j k = (r : EReal)) :
    kerVal p q = refVal p q := by
  choose P hP using hp
  choose Q hQ using hq
  obtain rfl : p = fun i k => ((P i k : ℝ) : EReal) := funext fun i => funext fun k => hP i k
  obtain rfl : q = fun j k => ((Q j k : ℝ) : EReal) := funext fun j => funext fun k => hQ j k
  have hrow : ∀ i : Fin 8192, ∃ r : ℝ,
      rowVal ((P i 0 : ℝ) : EReal) ((P i 1 : ℝ) : EReal) (auxOf fun j k => ((Q j k : ℝ) : EReal)) = (r : EReal) ∧
      refRow (fun i k => ((P i k : ℝ) : EReal)) (fun j k => ((Q j k : ℝ) : EReal)) i = (r : EReal) := fun i => by
    obtain ⟨j₀, hmin, hk⟩ := rowVal_coe (P i 0) (P i 1) Q
    exact ⟨_, hk, refRow_coe P Q i j₀ hmin⟩
  choose R hR1 hR2 using hrow
  unfold kerVal refVal blockSum
  simp only [hR1, hR2, coe_sum, scale_eq, count_eq]
  rw [Ideal.div_coe (by norm_num : (8192 : ℝ) ≠ 0)]
  simp only [← EReal.coe_zero, ← EReal.coe_mul, ← EReal.coe_add]
  rw [sum_rows R]
  congr 1
  ring

end Cert.Spec

end
-- ==== Proof.Finite.lean ====
/-
  From the certificate's precondition to "every entry of both argument arrays is a real number".

  The precondition is the conjunction of two all-reductions by `and`: the first over the one-bit words
  `|a i| < +∞`, the second over `|b i| < +∞`. The result being 1 gives each word 1 at every index; at the
  extended reals `|x|` is `max x (-x)` and the compared constant denotes `⊤`, so `x` is neither `⊥` nor `⊤`.
-/
import proofs.«109082_g41154376630568_cont_8to1_b_1840_20_alg».proof.Pre_finite_inputs
import Idealize.ShloMosaic.PureOps.Ideal
import Idealize.ShloMosaic.Lib.ReduceAll
import Idealize.ShloMosaic.Lib.ValueIdx
import Mathlib.Data.EReal.Basic

open Idealize.ShloMosaic

namespace Cert.Finite

/-- The f32 pattern `0x7F800000` (sign clear, exponent all ones, fraction zero) denotes `+∞`. -/
theorem inf_bits : Ideal.ofBits .f32 0x7F800000#32 = (⊤ : EReal) := by
  simp [Ideal.ofBits, Ideal.ieee]

/-- An extended real whose absolute value `max x (-x)` lies strictly below `⊤` is a real number:
    at `⊥` the negation is `⊤` and at `⊤` the value itself is, so in both the maximum is `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The one-bit word of the comparison `|x| < +∞` being 1 says that `x` is a real number. -/
theorem real_of_word (x : EReal)
    (h : Ideal.cmp .olt (max x (-x)) (Ideal.ofBits .f32 0x7F800000#32) = 1#1) : ∃ r : ℝ, x = (r : EReal) := by
  rw [inf_bits] at h
  refine real_of_abs_lt_top x ?_
  by_contra hn
  simp [Ideal.cmp, hn] at h

theorem real_of_pre [Cert.Pre_finite_inputs.Facts]
    (a b : FVec Ideal Cert.Pre_finite_inputs.S8192x2 .f32)
    (h : Cert.Pre_finite_inputs.fn (F := Ideal) a b = fun _ => 1#1) :
    (∀ i : Cert.Pre_finite_inputs.S8192x2.Idx, ∃ r : ℝ, a i = (r : EReal))
      ∧ (∀ i : Cert.Pre_finite_inputs.S8192x2.Idx, ∃ r : ℝ, b i = (r : EReal)) := by
  -- the scalar shape has one index, so the reduction is over every axis
  haveI : Subsingleton Cert.Pre_finite_inputs.S_.Idx := ⟨fun a b => funext fun d => d.elim0⟩
  have h0 := congrFun h ValueIdx.ix0
  dsimp only [Cert.Pre_finite_inputs.fn, andi] at h0
  obtain ⟨ha, hb⟩ := IntOp.andi_eq_one.1 h0
  refine ⟨fun i => ?_, fun i => ?_⟩
  · exact real_of_word (a i) (Host.reduce_andi_all _ _ _ _ _ ha i)
  · exact real_of_word (b i) (Host.reduce_andi_all _ _ _ _ _ hb i)

end Cert.Finite
-- ==== Proof.lean ====
/-
  The certificate: the kernel's program and the jnp reference compute the same mean least distance.

  For 8192 points p and 8192 points q in the plane, the reference averages over p's rows the least Euclidean
  distance to a row of q. The kernel expands the squared distance as (x² + y²) + (x·(−2a) + (y·(−2b) + (a² + b²)))
  against a table of q laid out beforehand, takes the least of the second summand over q in four stretches,
  adds x² + y² back, clamps at zero, takes the root, and accumulates the rows' sum over four grid points, each
  partial sum scaled by 2⁻¹³. Over the reals the two agree: the expansion is an identity, adding a constant and
  taking a root keep the place of the least element, a squared distance is never negative, and 2⁻¹³ is exactly
  1/8192. The inputs are finite by the precondition, which is what lets the expansion and the scaling be done
  in the reals.

  The three frames: the kernel's program, read at machine words and at the extended reals, runs its region over
  proof data that follow the 1 × 1 accumulator across the four grid points (Proof/KFrame.lean, Proof/KIFrame.lean);
  the reference is array operations only, and its frame is its run with the result dropped. The idealization
  rewrote nothing, so that claim is trivial. The value claim joins the idealized kernel's run (Proof/KIValue.lean),
  the reference's run (Proof/RefValue.lean), finiteness (Proof/Finite.lean) and the law (Proof/Algebra.lean) at
  one specification (Proof/Spec.lean).
-/
import proofs.«109082_g41154376630568_cont_8to1_b_1840_20_alg».proof.Defs
import proofs.«109082_g41154376630568_cont_8to1_b_1840_20_alg».proof.Proof.Gen.Kernel
import proofs.«109082_g41154376630568_cont_8to1_b_1840_20_alg».proof.Proof.Gen.KernelIdeal
import proofs.«109082_g41154376630568_cont_8to1_b_1840_20_alg».proof.Proof.Gen.ReferenceIdeal
import proofs.«109082_g41154376630568_cont_8to1_b_1840_20_alg».proof.Proof.Gen.ReferenceIdeal.Run
import proofs.«109082_g41154376630568_cont_8to1_b_1840_20_alg».proof.Proof.Gen.Pre_finite_inputs
import proofs.«109082_g41154376630568_cont_8to1_b_1840_20_alg».proof.Proof.KFrame
import proofs.«109082_g41154376630568_cont_8to1_b_1840_20_alg».proof.Proof.KIFrame
import proofs.«109082_g41154376630568_cont_8to1_b_1840_20_alg».proof.Proof.KIValue
import proofs.«109082_g41154376630568_cont_8to1_b_1840_20_alg».proof.Proof.RefValue
import proofs.«109082_g41154376630568_cont_8to1_b_1840_20_alg».proof.Proof.Algebra
import proofs.«109082_g41154376630568_cont_8to1_b_1840_20_alg».proof.Proof.Finite
import proofs.«109082_g41154376630568_cont_8to1_b_1840_20_alg».proof.Proof.Spec
import proofs.«109082_g41154376630568_cont_8to1_b_1840_20_alg».proof.Proof.Rows
import Idealize.ShloMosaic.Adequacy
import Idealize.ShloMosaic.Init

noncomputable section

namespace Cert.Proof

open Idealize.ShloMosaic Idealize.ShloMosaic.TcCoe Idealize.SL.Sem

/-- The kernel's program at machine words runs to the end, faults nowhere and keeps its arguments. -/
theorem frame_k : Cert.frame_Kernel := fun m ρ _ => Cert.Kernel.Frm.frame m ρ

/-- The same program at the extended reals. -/
theorem frame_ki : Cert.frame_KernelIdeal := fun m ρ _ => Cert.KernelIdeal.Frm.frame m ρ

/-- The reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the two finite argument arrays, the idealized kernel ends at the specification's
    kernel value and the reference at its reference value of the same rows; on finite rows the two are equal. -/
theorem algebraic : Cert.algebraic_KernelIdeal_ReferenceIdeal := by
  intro m ρ m' ρ' hpre hagree
  refine ⟨fun c => fun _ => Cert.Spec.kerVal
      (Cert.Spec.rows (m ((c.tc : Thread Cert.KernelIdeal.nD Cert.KernelIdeal.τ).loc Cert.KernelIdeal.main_arg0)))
      (Cert.Spec.rows (m ((c.tc : Thread Cert.KernelIdeal.nD Cert.KernelIdeal.τ).loc Cert.KernelIdeal.main_arg1))),
    Cert.KernelIdeal.KerValue.ker_run m ρ, ?_⟩
  refine (θ_run Cert.ReferenceIdeal.defs _ _).mono (fun _ h c => ⟨(h c).1.trans ?_, (h c).2⟩)
    (Cert.ReferenceIdeal.RefValue.ref_run m' ρ')
  rw [(hagree c).1, (hagree c).2]
  obtain ⟨ha, hb⟩ := Cert.Finite.real_of_pre _ _ (hpre c)
  funext _
  exact (Cert.Spec.kerVal_eq_refVal _ _ (fun i k => ha _) (fun j k => hb _)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
